-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16 : Shape := ⟨2, ![2048, 16]⟩
abbrev S2048 : Shape := ⟨1, ![2048]⟩
abbrev S2048x2024 : Shape := ⟨2, ![2048, 2024]⟩
abbrev S512 : Shape := ⟨1, ![512]⟩
abbrev S_ : Shape := ⟨0, ![]⟩

class Facts : Prop where
  bcast_S_S2048x16 : S_.BroadcastsInDim S2048x16 (![] : Fin 0 → Fin S2048x16.rank)
  reducesTo_S2048x16_S_d0_1 : S2048x16.ReducesTo [0, 1] S_
  h_S_ : 0 < S_.numel
  bcast_S_S2048x2024 : S_.BroadcastsInDim S2048x2024 (![] : Fin 0 → Fin S2048x2024.rank)
  reducesTo_S2048x2024_S_d0_1 : S2048x2024.ReducesTo [0, 1] S_
  bcast_S_S2048 : S_.BroadcastsInDim S2048 (![] : Fin 0 → Fin S2048.rank)
  reducesTo_S2048_S_d0 : S2048.ReducesTo [0] S_
  bcast_S_S512 : S_.BroadcastsInDim S512 (![] : Fin 0 → Fin S512.rank)
  reducesTo_S512_S_d0 : S512.ReducesTo [0] S_

variable [Facts]

def fn_part1 {F : FTy → Type} [FloatOps F] (main_arg6 : FVec F S512 .f32) (main_arg7 : FVec F S512 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : IVec S2048x16 32) (main_arg1 : FVec F S2048x16 .f32) (main_arg2 : IVec S2048 32) (main_arg3 : FVec F S2048x2024 .f32) (main_arg4 : FVec F S2048 .f32) (main_arg5 : FVec F S2048 .f32) (main_arg6 : FVec F S512 .f32) (main_arg7 : FVec F S512 .f32) : IVec S_ 1 :=
  let main_v0 : FVec F S2048x16 .f32 := Host.absf main_arg1
  let main_cst : FVec F S_ .f32 := constant S_ .f32 0x7F800000#32
  let main_v1 : FVec F S2048x16 .f32 := broadcastInDim S2048x16 ![] bcast_S_S2048x16 main_cst
  let main_v2 : IVec S2048x16 1 := cmpf .olt main_v0 main_v1
  let main_c : IVec S_ 1 := constantI S_ 1 1#1
  let main_v3 : IVec S_ 1 := (fun x v => Host.reduce IntOp.andi x v reducesTo_S2048x16_S_d0_1 h_S_) main_v2 main_c
  let main_v4 : FVec F S2048x2024 .f32 := Host.absf main_arg3
  let main_cst_0 : FVec F S_ .f32 := constant S_ .f32 0x7F800000#32
  let main_v5 : FVec F S2048x2024 .f32 := broadcastInDim S2048x2024 ![] bcast_S_S2048x2024 main_cst_0
  let main_v6 : IVec S2048x2024 1 := cmpf .olt main_v4 main_v5
  let main_c_1 : IVec S_ 1 := constantI S_ 1 1#1
  let main_v7 : IVec S_ 1 := (fun x v => Host.reduce IntOp.andi x v reducesTo_S2048x2024_S_d0_1 h_S_) main_v6 main_c_1
  let main_v8 : IVec S_ 1 := andi main_v3 main_v7
  let main_v9 : FVec F S2048 .f32 := Host.absf main_arg4
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg5
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg6 main_arg7 main_v13 main_v16
-- ==== Kernel.lean ====
abbrev S2048x16 : Shape := ⟨2, ![2048, 16]⟩
abbrev S2048 : Shape := ⟨1, ![2048]⟩
abbrev S2048x2024 : Shape := ⟨2, ![2048, 2024]⟩
abbrev S512 : Shape := ⟨1, ![512]⟩
abbrev S32768x1 : Shape := ⟨2, ![32768, 1]⟩
abbrev S_ : Shape := ⟨0, ![]⟩
abbrev S2048x1 : Shape := ⟨2, ![2048, 1]⟩
abbrev S2048x1000 : Shape := ⟨2, ![2048, 1000]⟩
abbrev S2048x1024 : Shape := ⟨2, ![2048, 1024]⟩
abbrev S2048x1023 : Shape := ⟨2, ![2048, 1023]⟩
abbrev S1x2048 : Shape := ⟨2, ![1, 2048]⟩
abbrev S1x512 : Shape := ⟨2, ![1, 512]⟩
abbrev S32768x512 : Shape := ⟨2, ![32768, 512]⟩
abbrev S512x1 : Shape := ⟨2, ![512, 1]⟩
abbrev S512x512 : Shape := ⟨2, ![512, 512]⟩
abbrev S512x1024 : Shape := ⟨2, ![512, 1024]⟩
abbrev S512x2048 : Shape := ⟨2, ![512, 2048]⟩
abbrev S2048x16x512 : Shape := ⟨3, ![2048, 16, 512]⟩

abbrev nBuf : Space → Nat
  | .hbm => 42
  | .vmem => 14
  | .smem => 0
  | _ => 0

abbrev bufTy : (tb : Table) → Fin (tcTables nBuf tb) → BufTy
  | .hbm, ⟨0, _⟩ => ⟨S2048x16, .i32⟩
  | .hbm, ⟨1, _⟩ => ⟨S2048x16, .f32⟩
  | .hbm, ⟨2, _⟩ => ⟨S2048, .i32⟩
  | .hbm, ⟨3, _⟩ => ⟨S2048x2024, .f32⟩
  | .hbm, ⟨4, _⟩ => ⟨S2048, .f32⟩
  | .hbm, ⟨5, _⟩ => ⟨S2048, .f32⟩
  | .hbm, ⟨6, _⟩ => ⟨S512, .f32⟩
  | .hbm, ⟨7, _⟩ => ⟨S512, .f32⟩
  | .hbm, ⟨8, _⟩ => ⟨S32768x1, .i32⟩
  | .hbm, ⟨9, _⟩ => ⟨S_, .f32⟩
  | .hbm, ⟨10, _⟩ => ⟨S2048x16, .f32⟩
  | .hbm, ⟨11, _⟩ => ⟨S2048x16, .f32⟩
  | .hbm, ⟨12, _⟩ => ⟨S32768x1, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048x1, .i32⟩
  | .hbm, ⟨22, _⟩ => ⟨S2048x16, .i32⟩
  | .hbm, ⟨23, _⟩ => ⟨S32768x1, .i32⟩
  | .hbm, ⟨24, _⟩ => ⟨S2048x2024, .bf16⟩
  | .hbm, ⟨25, _⟩ => ⟨S2048x1000, .bf16⟩
  | .hbm, ⟨26, _⟩ => ⟨S_, .i32⟩
  | .hbm, ⟨27, _⟩ => ⟨S_, .bf16⟩
  | .hbm, ⟨28, _⟩ => ⟨S2048x1024, .bf16⟩
  | .hbm, ⟨29, _⟩ => ⟨S2048x1023, .bf16⟩
  | .hbm, ⟨30, _⟩ => ⟨S_, .i32⟩
  | .hbm, ⟨31, _⟩ => ⟨S_, .bf16⟩
  | .hbm, ⟨32, _⟩ => ⟨S2048x1024, .bf16⟩
  | .hbm, ⟨33, _⟩ => ⟨S2048x1, .f32⟩
  | .hbm, ⟨34, _⟩ => ⟨S2048, .f32⟩
  | .hbm, ⟨35, _⟩ => ⟨S1x2048, .f32⟩
  | .hbm, ⟨36, _⟩ => ⟨S2048, .f32⟩
  | .hbm, ⟨37, _⟩ => ⟨S1x2048, .f32⟩
  | .hbm, ⟨38, _⟩ => ⟨S1x512, .f32⟩
  | .hbm, ⟨39, _⟩ => ⟨S1x512, .f32⟩
  | .hbm, ⟨40, _⟩ => ⟨S32768x512, .f32⟩
  | .hbm, ⟨41, _⟩ => ⟨S2048x16x512, .f32⟩
  | .local _ .vmem, ⟨0, _⟩ => ⟨S512x1, .i32⟩
  | .local _ .vmem, ⟨1, _⟩ => ⟨S512x1, .i32⟩
  | .local _ .vmem, ⟨2, _⟩ => ⟨S512x1, .i32⟩
  | .local _ .vmem, ⟨3, _⟩ => ⟨S512x1, .i32⟩
  | .local _ .vmem, ⟨4, _⟩ => ⟨S512x1, .f32⟩
  | .local _ .vmem, ⟨5, _⟩ => ⟨S512x1, .f32⟩
  | .local _ .vmem, ⟨6, _⟩ => ⟨S2048x1024, .bf16⟩
  | .local _ .vmem, ⟨7, _⟩ => ⟨S2048x1024, .bf16⟩
  | .local _ .vmem, ⟨8, _⟩ => ⟨S1x2048, .f32⟩
  | .local _ .vmem, ⟨9, _⟩ => ⟨S1x2048, .f32⟩
  | .local _ .vmem, ⟨10, _⟩ => ⟨S1x512, .f32⟩
  | .local _ .vmem, ⟨11, _⟩ => ⟨S1x512, .f32⟩
  | .local _ .vmem, ⟨12, _⟩ => ⟨S512x512, .f32⟩
  | .local _ .vmem, ⟨13, _⟩ => ⟨S512x512, .f32⟩
  | _, _ => ⟨S2048x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_1 : Ref sig .tc := ⟨.hbm, 26, rfl⟩
abbrev main_call1_v0 : Ref sig .tc := ⟨.hbm, 27, rfl⟩
abbrev main_v10 : Ref sig .tc := ⟨.hbm, 28, rfl⟩
abbrev main_v11 : Ref sig .tc := ⟨.hbm, 29, rfl⟩
abbrev main_c_2 : Ref sig .tc := ⟨.hbm, 30, rfl⟩
abbrev main_call2_v0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S2048x16_S32768x1 : S2048x16.ShapeCasts S32768x1
  bcast_S_S2048x16 : S_.BroadcastsInDim S2048x16 (![] : Fin 0 → Fin S2048x16.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x16_0_1 : S2048x1.BroadcastsInDim S2048x16 (![0, 1] : Fin 2 → Fin S2048x16.rank)
  bitsLt_bf16_f32 : FTy.bits .bf16 < FTy.bits .f32
  slices_S2048x2024_S2048x1000_0_0 : S2048x2024.Slices ![0, 0] S2048x1000
  pads_S2048x1000_S2048x1024_000_0240 : S2048x1000.Pads (![0, 0] : Fin 2 → Nat) ![0, 24] ![0, 0] S2048x1024
  h_S_ : 0 < S_.numel
  slices_S2048x2024_S2048x1023_0_1001 : S2048x2024.Slices ![0, 1001] S2048x1023
  pads_S2048x1023_S2048x1024_000_010 : S2048x1023.Pads (![0, 0] : Fin 2 → Nat) ![0, 1] ![0, 0] S2048x1024
  slices_S2048x2024_S2048x1_0_1000 : S2048x2024.Slices ![0, 1000] S2048x1
  shapeCasts_S2048x1_S2048 : S2048x1.ShapeCasts S2048
  shapeCasts_S2048_S1x2048 : S2048.ShapeCasts S1x2048
  shapeCasts_S512_S1x512 : S512.ShapeCasts S1x512
  iota_S512x1024_d1_w32 : S512x1024.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  natLt_1_32 : 1 < 32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  slices_S512x2048_o0_0_S512x512 : S512x2048.Slices ![0, 0] S512x512
  slices_S512x2048_o0_1024_S512x512 : S512x2048.Slices ![0, 1024] S512x512
  slices_S512x2048_o0_1536_S512x512 : S512x2048.Slices ![0, 1536] S512x512
  reduces_S512x512_S512 : S512x512.Reduces [1] S512
  shapeCasts_S512_S512x1 : S512.ShapeCasts S512x1
  broadcasts_S512x1_S512x512 : S512x1.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S32768x512_S2048x16x512 : S32768x512.ShapeCasts S2048x16x512
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S32768x1.size a
  hwx0_0 : ∀ i : grid0.Coords, EltTy.bits .i32 = 32 ∨ (Rect.block (s := S32768x1) S512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S32768x1.size a
  hwx0_1 : ∀ i : grid0.Coords, EltTy.bits .i32 = 32 ∨ (Rect.block (s := S32768x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S32768x1.size a
  hwx0_2 : ∀ i : grid0.Coords, EltTy.bits .f32 = 32 ∨ (Rect.block (s := S32768x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x1024.size a
  hwx0_4 : ∀ i : grid0.Coords, EltTy.bits .bf16 = 32 ∨ (Rect.block (s := S2048x1024) S2048x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S32768x512.size a
  hwx0_9 : ∀ i : grid0.Coords, EltTy.bits .f32 = 32 ∨ (Rect.block (s := S32768x512) S512x512.size (cc0_transform_9 i) (hinb0_9 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S2048x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S512x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2048x16 : Shape := ⟨2, ![2048, 16]⟩
abbrev S2048 : Shape := ⟨1, ![2048]⟩
abbrev S2048x2024 : Shape := ⟨2, ![2048, 2024]⟩
abbrev S512 : Shape := ⟨1, ![512]⟩
abbrev S2048x16x1 : Shape := ⟨3, ![2048, 16, 1]⟩
abbrev S1x1x1000 : Shape := ⟨3, ![1, 1, 1000]⟩
abbrev S2048x16x1000 : Shape := ⟨3, ![2048, 16, 1000]⟩
abbrev S_ : Shape := ⟨0, ![]⟩
abbrev S2048x1 : Shape := ⟨2, ![2048, 1]⟩
abbrev S1x1023 : Shape := ⟨2, ![1, 1023]⟩
abbrev S2048x1023 : Shape := ⟨2, ![2048, 1023]⟩
abbrev S2048x1x1023 : Shape := ⟨3, ![2048, 1, 1023]⟩
abbrev S2048x16x1023 : Shape := ⟨3, ![2048, 16, 1023]⟩
abbrev S2048x16x2024 : Shape := ⟨3, ![2048, 16, 2024]⟩
abbrev S2048x16x2048 : Shape := ⟨3, ![2048, 16, 2048]⟩
abbrev S1x1x2048 : Shape := ⟨3, ![1, 1, 2048]⟩
abbrev S2048x16x512 : Shape := ⟨3, ![2048, 16, 512]⟩
abbrev S1x1x512 : Shape := ⟨3, ![1, 1, 512]⟩

abbrev nBuf : Space → Nat
  | .hbm => 95
  | .vmem => 0
  | .smem => 0
  | _ => 0

abbrev bufTy : (tb : Table) → Fin (tcTables nBuf tb) → BufTy
  | .hbm, ⟨0, _⟩ => ⟨S2048x16, .i32⟩
  | .hbm, ⟨1, _⟩ => ⟨S2048x16, .f32⟩
  | .hbm, ⟨2, _⟩ => ⟨S2048, .i32⟩
  | .hbm, ⟨3, _⟩ => ⟨S2048x2024, .f32⟩
  | .hbm, ⟨4, _⟩ => ⟨S2048, .f32⟩
  | .hbm, ⟨5, _⟩ => ⟨S2048, .f32⟩
  | .hbm, ⟨6, _⟩ => ⟨S512, .f32⟩
  | .hbm, ⟨7, _⟩ => ⟨S512, .f32⟩
  | .hbm, ⟨8, _⟩ => ⟨S2048x16x1, .i32⟩
  | .hbm, ⟨9, _⟩ => ⟨S1x1x1000, .i32⟩
  | .hbm, ⟨10, _⟩ => ⟨S2048x16x1000, .i32⟩
  | .hbm, ⟨11, _⟩ => ⟨S2048x16x1000, .i32⟩
  | .hbm, ⟨12, _⟩ => ⟨S2048x16x1000, .i1⟩
  | .hbm, ⟨13, _⟩ => ⟨S2048x16x1000, .f32⟩
  | .hbm, ⟨14, _⟩ => ⟨S_, .f32⟩
  | .hbm, ⟨15, _⟩ => ⟨S2048x16, .f32⟩
  | .hbm, ⟨16, _⟩ => ⟨S2048x16, .f32⟩
  | .hbm, ⟨17, _⟩ => ⟨S2048x16x1, .f32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S1x1023, .i32⟩
  | .hbm, ⟨28, _⟩ => ⟨S2048x1023, .i32⟩
  | .hbm, ⟨29, _⟩ => ⟨S2048x1023, .i32⟩
  | .hbm, ⟨30, _⟩ => ⟨S2048x1023, .i1⟩
  | .hbm, ⟨31, _⟩ => ⟨S2048x1023, .f32⟩
  | .hbm, ⟨32, _⟩ => ⟨S2048x1x1023, .f32⟩
  | .hbm, ⟨33, _⟩ => ⟨S2048x16x1023, .f32⟩
  | .hbm, ⟨34, _⟩ => ⟨S2048x16x2024, .f32⟩
  | .hbm, ⟨35, _⟩ => ⟨S2048x16x2048, .f32⟩
  | .hbm, ⟨36, _⟩ => ⟨S1x1x2048, .f32⟩
  | .hbm, ⟨37, _⟩ => ⟨S2048x16x2048, .f32⟩
  | .hbm, ⟨38, _⟩ => ⟨S2048x16x2048, .f32⟩
  | .hbm, ⟨39, _⟩ => ⟨S1x1x2048, .f32⟩
  | .hbm, ⟨40, _⟩ => ⟨S2048x16x2048, .f32⟩
  | .hbm, ⟨41, _⟩ => ⟨S2048x16x2048, .f32⟩
  | .hbm, ⟨42, _⟩ => ⟨S2048x16x512, .f32⟩
  | .hbm, ⟨43, _⟩ => ⟨S2048x16x512, .f32⟩
  | .hbm, ⟨44, _⟩ => ⟨S2048x16x512, .f32⟩
  | .hbm, ⟨45, _⟩ => ⟨S2048x16x512, .f32⟩
  | .hbm, ⟨46, _⟩ => ⟨S2048x16x512, .f32⟩
  | .hbm, ⟨47, _⟩ => ⟨S2048x16x512, .f32⟩
  | .hbm, ⟨48, _⟩ => ⟨S_, .f32⟩
  | .hbm, ⟨49, _⟩ => ⟨S2048x16x512, .f32⟩
  | .hbm, ⟨50, _⟩ => ⟨S2048x16x512, .f32⟩
  | .hbm, ⟨51, _⟩ => ⟨S_, .f32⟩
  | .hbm, ⟨52, _⟩ => ⟨S2048x16x512, .f32⟩
  | .hbm, ⟨53, _⟩ => ⟨S2048x16x512, .f32⟩
  | .hbm, ⟨54, _⟩ => ⟨S2048x16x512, .f32⟩
  | .hbm, ⟨55, _⟩ => ⟨S2048x16x512, .f32⟩
  | .hbm, ⟨56, _⟩ => ⟨S2048x16x512, .f32⟩
  | .hbm, ⟨57, _⟩ => ⟨S2048x16x512, .f32⟩
  | .hbm, ⟨58, _⟩ => ⟨S_, .f32⟩
  | .hbm, ⟨59, _⟩ => ⟨S2048x16x512, .f32⟩
  | .hbm, ⟨60, _⟩ => ⟨S2048x16x512, .f32⟩
  | .hbm, ⟨61, _⟩ => ⟨S_, .f32⟩
  | .hbm, ⟨62, _⟩ => ⟨S2048x16x512, .f32⟩
  | .hbm, ⟨63, _⟩ => ⟨S2048x16x512, .f32⟩
  | .hbm, ⟨64, _⟩ => ⟨S2048x16x512, .f32⟩
  | .hbm, ⟨65, _⟩ => ⟨S2048x16x512, .f32⟩
  | .hbm, ⟨66, _⟩ => ⟨S_, .f32⟩
  | .hbm, ⟨67, _⟩ => ⟨S2048x16, .f32⟩
  | .hbm, ⟨68, _⟩ => ⟨S2048x16x1, .f32⟩
  | .hbm, ⟨69, _⟩ => ⟨S_, .f32⟩
  | .hbm, ⟨70, _⟩ => ⟨S2048x16x1, .f32⟩
  | .hbm, ⟨71, _⟩ => ⟨S2048x16x1, .f32⟩
  | .hbm, ⟨72, _⟩ => ⟨S2048x16x512, .f32⟩
  | .hbm, ⟨73, _⟩ => ⟨S2048x16x512, .f32⟩
  | .hbm, ⟨74, _⟩ => ⟨S2048x16x512, .f32⟩
  | .hbm, ⟨75, _⟩ => ⟨S_, .f32⟩
  | .hbm, ⟨76, _⟩ => ⟨S2048x16, .f32⟩
  | .hbm, ⟨77, _⟩ => ⟨S2048x16x1, .f32⟩
  | .hbm, ⟨78, _⟩ => ⟨S_, .f32⟩
  | .hbm, ⟨79, _⟩ => ⟨S2048x16x1, .f32⟩
  | .hbm, ⟨80, _⟩ => ⟨S2048x16x1, .f32⟩
  | .hbm, ⟨81, _⟩ => ⟨S2048x16x512, .f32⟩
  | .hbm, ⟨82, _⟩ => ⟨S2048x16x512, .f32⟩
  | .hbm, ⟨83, _⟩ => ⟨S_, .f32⟩
  | .hbm, ⟨84, _⟩ => ⟨S2048x16x1, .f32⟩
  | .hbm, ⟨85, _⟩ => ⟨S2048x16x1, .f32⟩
  | .hbm, ⟨86, _⟩ => ⟨S2048x16x1, .f32⟩
  | .hbm, ⟨87, _⟩ => ⟨S2048x16x512, .f32⟩
  | .hbm, ⟨88, _⟩ => ⟨S2048x16x512, .f32⟩
  | .hbm, ⟨89, _⟩ => ⟨S1x1x512, .f32⟩
  | .hbm, ⟨90, _⟩ => ⟨S2048x16x512, .f32⟩
  | .hbm, ⟨91, _⟩ => ⟨S2048x16x512, .f32⟩
  | .hbm, ⟨92, _⟩ => ⟨S1x1x512, .f32⟩
  | .hbm, ⟨93, _⟩ => ⟨S2048x16x512, .f32⟩
  | .hbm, ⟨94, _⟩ => ⟨S2048x16x512, .f32⟩
  | _, _ => ⟨S2048x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_c_0 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v4 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_1 : Ref sig .tc := ⟨.hbm, 48, rfl⟩
abbrev main_v22 : Ref sig .tc := ⟨.hbm, 49, rfl⟩
abbrev main_v23 : Ref sig .tc := ⟨.hbm, 50, rfl⟩
abbrev main_cst_2 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_3 : Ref sig .tc := ⟨.hbm, 58, rfl⟩
abbrev main_v30 : Ref sig .tc := ⟨.hbm, 59, rfl⟩
abbrev main_v31 : Ref sig .tc := ⟨.hbm, 60, rfl⟩
abbrev main_cst_4 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_5 : Ref sig .tc := ⟨.hbm, 66, rfl⟩
abbrev main_v36 : Ref sig .tc := ⟨.hbm, 67, rfl⟩
abbrev main_v37 : Ref sig .tc := ⟨.hbm, 68, rfl⟩
abbrev main_cst_6 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_7 : Ref sig .tc := ⟨.hbm, 75, rfl⟩
abbrev main_v43 : Ref sig .tc := ⟨.hbm, 76, rfl⟩
abbrev main_v44 : Ref sig .tc := ⟨.hbm, 77, rfl⟩
abbrev main_cst_8 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_9 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩

abbrev nD : Nat := 1
abbrev τ : Topo := Topo.v7x

variable {F : FTy → Type} [FloatOps F]

class Facts₀ : Prop where
  bcast_S2048x16_S2048x16x1_0_1 : S2048x16.BroadcastsInDim S2048x16x1 (![0, 1] : Fin 2 → Fin S2048x16x1.rank)
  bcast_S2048x16x1_S2048x16x1000_0_1_2 : S2048x16x1.BroadcastsInDim S2048x16x1000 (![0, 1, 2] : Fin 3 → Fin S2048x16x1000.rank)
  bcast_S1x1x1000_S2048x16x1000_0_1_2 : S1x1x1000.BroadcastsInDim S2048x16x1000 (![0, 1, 2] : Fin 3 → Fin S2048x16x1000.rank)
  bcast_S_S2048x16 : S_.BroadcastsInDim S2048x16 (![] : Fin 0 → Fin S2048x16.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x1023_0_1 : S2048x1.BroadcastsInDim S2048x1023 (![0, 1] : Fin 2 → Fin S2048x1023.rank)
  bcast_S1x1023_S2048x1023_0_1 : S1x1023.BroadcastsInDim S2048x1023 (![0, 1] : Fin 2 → Fin S2048x1023.rank)
  bcast_S2048x1023_S2048x1x1023_0_2 : S2048x1023.BroadcastsInDim S2048x1x1023 (![0, 2] : Fin 2 → Fin S2048x1x1023.rank)
  bcast_S2048x1x1023_S2048x16x1023_0_1_2 : S2048x1x1023.BroadcastsInDim S2048x16x1023 (![0, 1, 2] : Fin 3 → Fin S2048x16x1023.rank)
  concatenates_S2048x16x1000_S2048x16x1_S2048x16x1023_S2048x16x2024_d2 : Shape.Concatenates [S2048x16x1000, S2048x16x1, S2048x16x1023] S2048x16x2024 2
  bcast_S2048_S1x1x2048_2 : S2048.BroadcastsInDim S1x1x2048 (![2] : Fin 1 → Fin S1x1x2048.rank)
  bcast_S1x1x2048_S2048x16x2048_0_1_2 : S1x1x2048.BroadcastsInDim S2048x16x2048 (![0, 1, 2] : Fin 3 → Fin S2048x16x2048.rank)
  slices_S2048x16x2048_S2048x16x512_0_0_0 : S2048x16x2048.Slices ![0, 0, 0] S2048x16x512
  slices_S2048x16x2048_S2048x16x512_0_0_512 : S2048x16x2048.Slices ![0, 0, 512] S2048x16x512
  slices_S2048x16x2048_S2048x16x512_0_0_1024 : S2048x16x2048.Slices ![0, 0, 1024] S2048x16x512
  slices_S2048x16x2048_S2048x16x512_0_0_1536 : S2048x16x2048.Slices ![0, 0, 1536] S2048x16x512
  bcast_S_S2048x16x512 : S_.BroadcastsInDim S2048x16x512 (![] : Fin 0 → Fin S2048x16x512.rank)
  reducesTo_S2048x16x512_S2048x16_d2 : S2048x16x512.ReducesTo [2] S2048x16
  h_S_ : 0 < S_.numel
  bcast_S_S2048x16x1 : S_.BroadcastsInDim S2048x16x1 (![] : Fin 0 → Fin S2048x16x1.rank)
  bcast_S2048x16x1_S2048x16x512_0_1_2 : S2048x16x1.BroadcastsInDim S2048x16x512 (![0, 1, 2] : Fin 3 → Fin S2048x16x512.rank)
  bcast_S512_S1x1x512_2 : S512.BroadcastsInDim S1x1x512 (![2] : Fin 1 → Fin S1x1x512.rank)
  bcast_S1x1x512_S2048x16x512_0_1_2 : S1x1x512.BroadcastsInDim S2048x16x512 (![0, 1, 2] : Fin 3 → Fin S2048x16x512.rank)
  dot_S2048x16x2024_S2048x2024_S2048x16x2048_2_1_01_0_n_n_wf : DotDims.WF S2048x16x2024 S2048x2024 S2048x16x2048 [2] [1] [0, 1] [0] [] []

variable [Facts₀]

def dot_S2048x16x2024_S2048x2024_S2048x16x2048_2_1_01_0_n_n : DotDims S2048x16x2024 S2048x2024 S2048x16x2048 where
  lhsContracting := [2]
  rhsContracting := [1]
  lhsNonContracting := [0, 1]
  rhsNonContracting := [0]
  lhsBatch := []
  rhsBatch := []
  wf := dot_S2048x16x2024_S2048x2024_S2048x16x2048_2_1_01_0_n_n_wf

class Facts : Prop extends Facts₀ where

variable [Facts]
-- ==== Proof.Spec.lean ====
/-
  The mathematics both programs compute, one output row at a time.

  A row is one (vehicle, slot) pair. Its 2048 gate pre-activations are an affine function of a feature row that is
  one-hot in the node position (1000 entries), carries the load divided by the capacity (1 entry), and is one-hot in
  the clipped time step (1023 entries). The reference contracts the whole 2024-entry feature row against a row of the
  weight matrix (`gateR`). The kernel contracts two one-hot rows of width 1024 against the two weight blocks padded
  with zeros, and adds the load term and the summed biases separately (`gateK`). From the gates both form the LSTM cell
  with zero initial state, `σ(o) · tanh (σ(i) · tanh g)` (`cell`), and normalize the 512 hidden values of the row to zero
  mean and unit variance; the kernel multiplies by the reciprocal square root (`normK`), the reference divides by the
  square root (`normR`).
-/
import Idealize.ShloMosaic.PureOps.Ideal
import Idealize.ShloMosaic.PureOps.Ideal.Laws
import Idealize.ShloMosaic.Lib.ValueIdx

noncomputable section

namespace Cert.Embed

open Idealize.ShloMosaic Idealize.ShloMosaic.ValueIdx
open Finset BigOperators

/-! ### One-hot entries -/

/-- A compare bit as a number: `0` or `1`. -/
def hot (b : BitVec 1) : EReal := ((b.toNat : ℝ) : EReal)

/-- Entry `j` of the one-hot row of the word `p`: `1` when `p` is the 32-bit word of `j`, else `0`. A word that is the
    word of no `j` in range (a negative or too large index) gives the zero row. -/
def onehot (p : BitVec 32) (j : Nat) : EReal := hot (IntOp.cmpi .eq p (BitVec.ofNat 32 j))

/-! ### The gate pre-activation, two ways -/

/-- The reference's feature row: node one-hot, scaled load, time one-hot. -/
def feat (p t : BitVec 32) (l : EReal) (f : Fin 2024) : EReal :=
  if f.val < 1000 then onehot p f.val else if f.val = 1000 then l else onehot t (f.val - 1001)

/-- One gate as the reference forms it: the feature row against the gate's weight row, then the two biases in turn. -/
def gateR (p t : BitVec 32) (l : EReal) (W : Fin 2024 → EReal) (b1 b2 : EReal) : EReal :=
  (∑ f : Fin 2024, feat p t l f * W f + b1) + b2

/-- One gate as the kernel forms it: the node one-hot row against the padded node block, the time one-hot row against
    the padded time block, the load term, the summed bias. -/
def gateK (p t : BitVec 32) (l : EReal) (wp wt : Fin 1024 → EReal) (wl bs : EReal) : EReal :=
  ((∑ j : Fin 1024, onehot p j.val * wp j + ∑ j : Fin 1024, onehot t j.val * wt j) + l * wl) + bs

/-! ### The cell -/

/-- The LSTM cell from zero state: output gate times `tanh` of (input gate times candidate). -/
def cell (gi gg go : EReal) : EReal := Ideal.logistic go * Ideal.tanh (Ideal.logistic gi * Ideal.tanh gg)

/-- Column `d` of the input-gate block, of the candidate block, of the output-gate block (the forget-gate block, columns
    512 to 1023, is not used: the initial cell state is zero). -/
def colI (d : Fin 512) : Fin 2048 := ⟨d.val, by have := d.isLt; omega⟩
def colG (d : Fin 512) : Fin 2048 := ⟨1024 + d.val, by have := d.isLt; omega⟩
def colO (d : Fin 512) : Fin 2048 := ⟨1536 + d.val, by have := d.isLt; omega⟩

/-- The row's hidden values from its gates. -/
def hidden (G : Fin 2048 → EReal) (d : Fin 512) : EReal := cell (G (colI d)) (G (colG d)) (G (colO d))

/-! ### The normalization, two ways -/

/-- The row length `512.0` and the variance offset, as the programs spell them. -/
def c512 : EReal := Ideal.ofBits .f32 0x44000000#32
def ceps : EReal := Ideal.ofBits .f32 0x3727C5AC#32
/-- The capacity `100.0` the loads are divided by. -/
def c100 : EReal := Ideal.ofBits .f32 0x42C80000#32

def mean (h : Fin 512 → EReal) : EReal := Ideal.div (∑ k : Fin 512, h k) c512
def var (h : Fin 512 → EReal) : EReal := Ideal.div (∑ k : Fin 512, (h k - mean h) * (h k - mean h)) c512

/-- The kernel's normalized value: centred, times the reciprocal root of the offset variance, scaled and shifted. -/
def normK (h : Fin 512 → EReal) (γ β : EReal) (d : Fin 512) : EReal :=
  (h d - mean h) * Ideal.rsqrt (var h + ceps) * γ + β
/-- The reference's: centred, divided by the root of the offset variance, scaled and shifted. -/
def normR (h : Fin 512 → EReal) (γ β : EReal) (d : Fin 512) : EReal :=
  Ideal.div (h d - mean h) (Ideal.sqrt (var h + ceps)) * γ + β

/-! ### A row of the result, two ways -/

def rowK (p t : BitVec 32) (l : EReal) (wp wt : Fin 2048 → Fin 1024 → EReal) (wl bs : Fin 2048 → EReal)
    (γ β : Fin 512 → EReal) (d : Fin 512) : EReal :=
  normK (hidden fun g => gateK p t l (wp g) (wt g) (wl g) (bs g)) (γ d) (β d) d

def rowR (p t : BitVec 32) (l : EReal) (W : Fin 2048 → Fin 2024 → EReal) (b1 b2 : Fin 2048 → EReal)
    (γ β : Fin 512 → EReal) (d : Fin 512) : EReal :=
  normR (hidden fun g => gateR p t l (W g) (b1 g) (b2 g)) (γ d) (β d) d

/-! ### The whole result -/

/-- The time step clipped to `[0, 1022]`, as both programs clip it (signed maximum with 0, then signed minimum with 1022). -/
def clip (t : BitVec 32) : BitVec 32 := IntOp.minsi 1022#32 (IntOp.maxsi 0#32 t)

/-- The result array as a function of the eight arguments: entry `(b, k, d)` is column `d` of the row of vehicle `b`,
    slot `k`. -/
def outR (pos : (⟨2, ![2048, 16]⟩ : Shape).Idx → BitVec 32) (loads : (⟨2, ![2048, 16]⟩ : Shape).Idx → EReal)
    (time : (⟨1, ![2048]⟩ : Shape).Idx → BitVec 32) (W : (⟨2, ![2048, 2024]⟩ : Shape).Idx → EReal)
    (bih bhh : (⟨1, ![2048]⟩ : Shape).Idx → EReal) (gamma beta : (⟨1, ![512]⟩ : Shape).Idx → EReal) :
    (⟨3, ![2048, 16, 512]⟩ : Shape).Idx → EReal := fun i =>
  rowR (pos (ix2 (i 0) (i 1))) (clip (time (ix1 (i 0)))) (Ideal.div (loads (ix2 (i 0) (i 1))) c100)
    (fun g f => W (ix2 g f)) (fun g => bih (ix1 g)) (fun g => bhh (ix1 g))
    (fun d => gamma (ix1 d)) (fun d => beta (ix1 d)) (i 2)

end Cert.Embed

end
-- ==== Proof.LibCoe.lean ====
/-
  The extended-real operations of the ideal float instance, read on COERCED REALS.

  Every value of the ideal instance is an extended real. Where an argument is (the coercion of) a real number
  and stays away from an operation's corner (a zero divisor, a non-positive argument of the logarithm or of
  the reciprocal square root), the result is again the coercion of a real: the real operation's value. Each
  lemma below is such an equation, its right side a coerced real, so that a value claim over finite inputs can
  be pushed, operation by operation, from the extended reals down to a statement about real numbers.

  The bit patterns that denote the constants are unfolded here, once.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Sqrt
import Mathlib.Analysis.SpecialFunctions.Log.Basic
import Mathlib.Tactic.NormNum

noncomputable section

namespace Cert.LibCoe

open Idealize.ShloMosaic
open Finset BigOperators

/-! ### Field operations -/

/-- The sum of two coerced reals is the coercion of their sum. -/
theorem add_coe (a b : ℝ) : (a : EReal) + (b : EReal) = ((a + b : ℝ) : EReal) :=
  (EReal.coe_add a b).symm

/-- The difference of two coerced reals is the coercion of their difference. -/
theorem sub_coe (a b : ℝ) : (a : EReal) - (b : EReal) = ((a - b : ℝ) : EReal) :=
  (EReal.coe_sub a b).symm

/-- The product of two coerced reals is the coercion of their product. -/
theorem mul_coe (a b : ℝ) : (a : EReal) * (b : EReal) = ((a * b : ℝ) : EReal) :=
  (EReal.coe_mul a b).symm

/-- The negation of a coerced real is the coercion of its negation. -/
theorem neg_coe (a : ℝ) : -(a : EReal) = ((-a : ℝ) : EReal) :=
  (EReal.coe_neg a).symm

/-- Division of a coerced real by a coerced NON-ZERO real is the coercion of the real quotient: off zero the
    ideal division is the product with the inverse, and the inverse of a coerced real is the coerced inverse. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The maximum of two coerced reals is the coercion of their maximum (the coercion is monotone). -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- A finite sum of coerced reals is the coercion of the real sum. -/
theorem sum_coe {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-! ### Transcendental operations -/

/-- The reciprocal square root of a coerced POSITIVE real is the coerced `(√r)⁻¹`. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The exponential of a coerced real is the coerced real exponential. -/
theorem exp_coe (r : ℝ) : Ideal.exp (r : EReal) = ((Real.exp r : ℝ) : EReal) := rfl

/-- The logarithm of a coerced POSITIVE real is the coerced real logarithm. -/
theorem log_coe_pos {r : ℝ} (hr : 0 < r) :
    Ideal.log (r : EReal) = ((Real.log r : ℝ) : EReal) := by
  rw [Ideal.log_coe, if_neg (not_le.mpr hr)]

/-! ### Comparison -/

/-- The ordered comparison "greater than" of two coerced reals is the bit of the real comparison. -/
theorem cmp_ogt_coe (a b : ℝ) :
    Ideal.cmp .ogt (a : EReal) (b : EReal) = BitVec.ofBool (decide (b < a)) := by
  simp only [Ideal.cmp, EReal.coe_lt_coe_iff]

/-- A coerced positive real is "greater than" the coerced zero: the comparison's bit is set. -/
theorem cmp_ogt_coe_zero_of_pos {a : ℝ} (ha : 0 < a) :
    Ideal.cmp .ogt (a : EReal) ((0 : ℝ) : EReal) = 1#1 := by
  rw [cmp_ogt_coe, decide_eq_true ha]; rfl

/-- A coerced non-positive real is not "greater than" the coerced zero: the comparison's bit is clear. -/
theorem cmp_ogt_coe_zero_of_nonpos {a : ℝ} (ha : a ≤ 0) :
    Ideal.cmp .ogt (a : EReal) ((0 : ℝ) : EReal) = 0#1 := by
  rw [cmp_ogt_coe, decide_eq_false (not_lt.mpr ha)]; rfl

/-! ### Constants: what the single-precision patterns denote -/

/-- The pattern of `+0.0` denotes the real `0`. -/
theorem ofBits_zero : Ideal.ofBits .f32 0x00000000#32 = ((0 : ℝ) : EReal) := by
  rw [Ideal.ofBits_zero_f32, EReal.coe_zero]

/-- The pattern of `1.0` (exponent field 127, fraction 0) denotes the real `1`. -/
theorem ofBits_one : Ideal.ofBits .f32 0x3F800000#32 = ((1 : ℝ) : EReal) := by
  simp [Ideal.ofBits, Ideal.ieee, -EReal.coe_mul]; norm_num

/-- The pattern of `10000.0` (exponent field 140, fraction `0x1C4000`): `(2²³ + 1851392) · 2⁻¹⁰ = 10000`. -/
theorem ofBits_10000 : Ideal.ofBits .f32 0x461C4000#32 = ((10000 : ℝ) : EReal) := by
  simp [Ideal.ofBits, Ideal.ieee, -EReal.coe_mul]; norm_num

/-- The single-precision number nearest `10⁻⁵`, exactly: exponent field 110, fraction `0x27C5AC`, that is
    `(2²³ + 2606508) · 2⁻⁴⁰ = 10995116 / 2⁴⁰`. -/
def epsR : ℝ := 10995116 / 1099511627776

/-- That number is positive. -/
theorem epsR_pos : 0 < epsR := by unfold epsR; norm_num

/-- The pattern `0x3727C5AC` denotes `epsR`. -/
theorem ofBits_eps : Ideal.ofBits .f32 0x3727C5AC#32 = ((epsR : ℝ) : EReal) := by
  unfold epsR
  simp [Ideal.ofBits, Ideal.ieee, -EReal.coe_mul]; norm_num

/-- The pattern of `-∞` (sign set, exponent field all ones, fraction 0) denotes `⊥`. -/
theorem ofBits_neg_inf : Ideal.ofBits .f32 0xFF800000#32 = (⊥ : EReal) := by
  simp [Ideal.ofBits, Ideal.ieee]

end Cert.LibCoe

end
-- ==== Proof.SpecLaws.lean ====
/-
  Why the kernel's row is the reference's row.

  Gates. The reference's contraction over the 2024 feature entries splits at the load entry into the node part (entries
  0 to 999), the load term (entry 1000) and the time part (entries 1001 to 2023). The kernel's node contraction runs over
  1024 columns of which the last 24 meet zero padding, its time contraction over 1024 of which the last meets zero
  padding: the padded terms vanish (`x · 0 = 0` on every extended real) and what is left are the same three parts.
  Adding the two biases one after the other or as their sum is the same (addition of extended reals is associative).
  No finiteness is needed for any of this.

  Normalization. The logistic function and `tanh` take every extended real to a real, so the 512 hidden values of a row
  are real whatever the gates are. Then the mean and the variance are real, the variance is non-negative, and the
  variance plus the positive offset is a positive real `v`; there `x · v^(-1/2) = x / √v` for every extended real `x`.
-/
import proofs.«148316_j34368328302902_1_alg».proof.Proof.Spec
import proofs.«148316_j34368328302902_1_alg».proof.Proof.LibCoe
import Mathlib.Algebra.BigOperators.Fin
import Mathlib.Algebra.BigOperators.Intervals

noncomputable section

namespace Cert.Embed

open Idealize.ShloMosaic Idealize.ShloMosaic.ValueIdx
open Finset BigOperators

/-! ### The one-hot entry, signed or unsigned -/

/-- Widening a compare bit to 32 bits and reading it as a signed integer gives the same number as reading the bit
    unsigned. -/
theorem hot_signed (b : BitVec 1) : (((b.setWidth 32).toInt : ℝ) : EReal) = hot b := by
  have h : ∀ b : BitVec 1, (b.setWidth 32).toInt = (b.toNat : Int) := by decide
  unfold hot
  rw [h b, Int.cast_natCast]

/-! ### The two gate forms agree -/

section Gate
variable (p t : BitVec 32) (l : EReal) (W : Fin 2024 → EReal)

/-- The weight row continued by zero past its end, so that sums over ranges of naturals can be split freely. -/
def Wn (i : Nat) : EReal := if h : i < 2024 then W ⟨i, h⟩ else 0

theorem Wn_fin (f : Fin 2024) : Wn W f.val = W f := by unfold Wn; rw [dif_pos f.isLt]

/-- The feature row on naturals. -/
def featn (i : Nat) : EReal := if i < 1000 then onehot p i else if i = 1000 then l else onehot t (i - 1001)

/-- The reference's contraction splits at the load entry: the node part, the load term, the time part. -/
theorem sum_feat_split :
    ∑ f : Fin 2024, feat p t l f * W f
      = ∑ i ∈ range 1000, onehot p i * Wn W i + (∑ i ∈ range 1023, onehot t i * Wn W (1001 + i) + l * Wn W 1000) := by
  have e : ∑ f : Fin 2024, feat p t l f * W f = ∑ i ∈ range 2024, featn p t l i * Wn W i := by
    rw [← Fin.sum_univ_eq_sum_range (fun i => featn p t l i * Wn W i) 2024]
    exact Finset.sum_congr rfl fun f _ => by rw [Wn_fin]; rfl
  rw [e, show (2024 : Nat) = 1000 + (1023 + 1) from rfl, Finset.sum_range_add,
    Finset.sum_range_succ' (fun x => featn p t l (1000 + x) * Wn W (1000 + x)) 1023]
  refine congrArg₂ (· + ·) ?_ (congrArg₂ (· + ·) ?_ ?_)
  · exact Finset.sum_congr rfl fun i hi => by
      have := Finset.mem_range.mp hi
      unfold featn; rw [if_pos this]
  · exact Finset.sum_congr rfl fun i _ => by
      unfold featn
      rw [if_neg (by omega), if_neg (by omega), show 1000 + (i + 1) - 1001 = i by omega,
        show 1000 + (i + 1) = 1001 + i by omega]
  · unfold featn; rw [if_neg (by omega), if_pos rfl]

variable (wp wt : Fin 1024 → EReal)

/-- The node block's contraction: its 24 padded columns are zero and drop out. -/
theorem sum_node (hwp : ∀ j : Fin 1024, wp j = if j.val < 1000 then Wn W j.val else 0) :
    ∑ j : Fin 1024, onehot p j.val * wp j = ∑ i ∈ range 1000, onehot p i * Wn W i := by
  have e : ∑ j : Fin 1024, onehot p j.val * wp j
      = ∑ i ∈ range 1024, onehot p i * (if i < 1000 then Wn W i else 0) := by
    rw [← Fin.sum_univ_eq_sum_range (fun i => onehot p i * (if i < 1000 then Wn W i else 0)) 1024]
    exact Finset.sum_congr rfl fun j _ => by rw [hwp j]
  rw [e, show (1024 : Nat) = 1000 + 24 from rfl, Finset.sum_range_add]
  have z : ∑ x ∈ range 24, onehot p (1000 + x) * (if 1000 + x < 1000 then Wn W (1000 + x) else 0) = 0 :=
    Finset.sum_eq_zero fun x _ => by rw [if_neg (by omega), mul_zero]
  rw [z, add_zero]
  exact Finset.sum_congr rfl fun i hi => by rw [if_pos (Finset.mem_range.mp hi)]

/-- The time block's contraction: its one padded column is zero and drops out. -/
theorem sum_time (hwt : ∀ j : Fin 1024, wt j = if j.val < 1023 then Wn W (1001 + j.val) else 0) :
    ∑ j : Fin 1024, onehot t j.val * wt j = ∑ i ∈ range 1023, onehot t i * Wn W (1001 + i) := by
  have e : ∑ j : Fin 1024, onehot t j.val * wt j
      = ∑ i ∈ range 1024, onehot t i * (if i < 1023 then Wn W (1001 + i) else 0) := by
    rw [← Fin.sum_univ_eq_sum_range (fun i => onehot t i * (if i < 1023 then Wn W (1001 + i) else 0)) 1024]
    exact Finset.sum_congr rfl fun j _ => by rw [hwt j]
  rw [e, show (1024 : Nat) = 1023 + 1 from rfl, Finset.sum_range_succ, if_neg (by omega), mul_zero, add_zero]
  exact Finset.sum_congr rfl fun i hi => by rw [if_pos (Finset.mem_range.mp hi)]

/-- The kernel's gate is the reference's: the same terms, grouped otherwise. -/
theorem gateK_eq_gateR (wl bs b1 b2 : EReal)
    (hwp : ∀ j : Fin 1024, wp j = if j.val < 1000 then Wn W j.val else 0)
    (hwt : ∀ j : Fin 1024, wt j = if j.val < 1023 then Wn W (1001 + j.val) else 0)
    (hwl : wl = Wn W 1000) (hbs : bs = b1 + b2) :
    gateK p t l wp wt wl bs = gateR p t l W b1 b2 := by
  unfold gateK gateR
  rw [sum_feat_split, sum_node p W wp hwp, sum_time t W wt hwt, hwl, hbs]
  simp only [add_assoc]

end Gate

/-! ### The hidden values are real numbers -/

theorem logistic_real (x : EReal) : ∃ r : ℝ, Ideal.logistic x = (r : EReal) := by
  induction x using EReal.rec with
  | bot => exact ⟨0, by rw [Ideal.logistic_bot, EReal.coe_zero]⟩
  | coe r => exact ⟨_, Ideal.logistic_coe r⟩
  | top => exact ⟨1, by rw [Ideal.logistic_top, EReal.coe_one]⟩

theorem tanh_real (x : EReal) : ∃ r : ℝ, Ideal.tanh x = (r : EReal) := by
  induction x using EReal.rec with
  | bot => exact ⟨-1, by rw [Ideal.tanh_bot, EReal.coe_neg, EReal.coe_one]⟩
  | coe r => exact ⟨_, Ideal.tanh_coe r⟩
  | top => exact ⟨1, by rw [Ideal.tanh_top, EReal.coe_one]⟩

/-- The logistic function and `tanh` send every extended real to a real, so a cell value is a real whatever the gates. -/
theorem cell_real (gi gg go : EReal) : ∃ r : ℝ, cell gi gg go = (r : EReal) := by
  obtain ⟨a, ha⟩ := logistic_real go
  obtain ⟨b, hb⟩ := tanh_real (Ideal.logistic gi * Ideal.tanh gg)
  exact ⟨a * b, by unfold cell; rw [ha, hb, EReal.coe_mul]⟩

/-! ### The two normalizations agree on real rows -/

/-- The pattern of `512.0` (exponent field 136, fraction 0) denotes the real `512`. -/
theorem c512_eq : c512 = ((512 : ℝ) : EReal) := by
  unfold c512
  simp [Ideal.ofBits, Ideal.ieee, -EReal.coe_mul]; norm_num

/-- At a positive real, multiplying by the reciprocal square root is dividing by the square root. -/
theorem mul_rsqrt_eq_div_sqrt (x : EReal) {r : ℝ} (hr : 0 < r) :
    x * Ideal.rsqrt (r : EReal) = Ideal.div x (Ideal.sqrt (r : EReal)) := by
  rw [Cert.LibCoe.rsqrt_coe_pos hr, Ideal.sqrt_coe, if_neg (not_lt.mpr hr.le),
    Ideal.div_coe (Real.sqrt_pos.mpr hr).ne', one_div]

/-- The offset variance of a real row is a positive real: a mean of squares plus a positive constant. -/
theorem var_add_eps_pos (a : Fin 512 → ℝ) :
    ∃ r : ℝ, 0 < r ∧ var (fun k => (a k : EReal)) + ceps = (r : EReal) := by
  have hm : mean (fun k => (a k : EReal)) = (((∑ k, a k) / 512 : ℝ) : EReal) := by
    unfold mean
    rw [Cert.LibCoe.sum_coe, c512_eq, Cert.LibCoe.div_coe_coe _ (by norm_num)]
  refine ⟨(∑ k, (a k - (∑ k, a k) / 512) * (a k - (∑ k, a k) / 512)) / 512 + Cert.LibCoe.epsR, ?_, ?_⟩
  · exact add_pos_of_nonneg_of_pos
      (div_nonneg (Finset.sum_nonneg fun k _ => mul_self_nonneg _) (by norm_num)) Cert.LibCoe.epsR_pos
  · unfold var ceps
    rw [hm, Cert.LibCoe.ofBits_eps]
    simp only [Cert.LibCoe.sub_coe, Cert.LibCoe.mul_coe]
    rw [Cert.LibCoe.sum_coe, c512_eq, Cert.LibCoe.div_coe_coe _ (by norm_num), Cert.LibCoe.add_coe]

theorem normK_eq_normR (h : Fin 512 → EReal) (hh : ∀ k, ∃ r : ℝ, h k = (r : EReal)) (γ β : EReal) (d : Fin 512) :
    normK h γ β d = normR h γ β d := by
  choose a ha using hh
  obtain rfl : h = fun k => (a k : EReal) := funext ha
  obtain ⟨r, hr, e⟩ := var_add_eps_pos a
  unfold normK normR
  rw [e, mul_rsqrt_eq_div_sqrt _ hr]

/-! ### A row, two ways -/

/-- A row of the kernel's result is the reference's, when the kernel's two weight blocks are the reference's weight
    rows cut at the load column and padded with zeros, its load weights are the load column, and its bias is the sum
    of the two biases. -/
theorem rowK_eq_rowR (p t : BitVec 32) (l : EReal) (wp wt : Fin 2048 → Fin 1024 → EReal) (wl bs : Fin 2048 → EReal)
    (W : Fin 2048 → Fin 2024 → EReal) (b1 b2 : Fin 2048 → EReal) (γ β : Fin 512 → EReal) (d : Fin 512)
    (hwp : ∀ g (j : Fin 1024), wp g j = if j.val < 1000 then Wn (W g) j.val else 0)
    (hwt : ∀ g (j : Fin 1024), wt g j = if j.val < 1023 then Wn (W g) (1001 + j.val) else 0)
    (hwl : ∀ g, wl g = Wn (W g) 1000) (hbs : ∀ g, bs g = b1 g + b2 g) :
    rowK p t l wp wt wl bs γ β d = rowR p t l W b1 b2 γ β d := by
  unfold rowK rowR
  have hg : (fun g => gateK p t l (wp g) (wt g) (wl g) (bs g)) = fun g => gateR p t l (W g) (b1 g) (b2 g) :=
    funext fun g => gateK_eq_gateR p t l (W g) (wp g) (wt g) (wl g) (bs g) (b1 g) (b2 g) (hwp g) (hwt g) (hwl g) (hbs g)
  rw [hg]
  exact normK_eq_normR _ (fun k => cell_real _ _ _) _ _ _

end Cert.Embed

end
-- ==== Proof.KernelRow.lean ====
/-
  One row of the kernel's output block, read off the body's arithmetic.

  At a grid point the body holds 512 rows. Row `r` of the block it stores depends on row `r` of the three per-row
  operands (node word, time word, scaled load) and on the six shared operands whole (the two padded weight blocks, the
  load weights, the summed bias, the scale and the shift): it is `rowK` of those.

  The body's arithmetic is two stretches. The first forms the hidden block: the node words and the time words become
  one-hot rows (a comparison with the column coordinate, widened and converted), each one-hot block is multiplied into a
  zero accumulator against its padded weight block, the load term and the bias are added, and three column blocks of
  the 2048 gate columns go through the logistic function and `tanh`. The second normalizes each row of the hidden
  block: mean, centred squares, variance, reciprocal root of the offset variance, scale, shift. Every operation is read
  at one index `(r, d)`: the pointwise ones by definition, the layout ones (broadcasts, the vector-to-column view, the
  column blocks) by naming the operand's index, the lane sums and the products as sums over the one contracted
  coordinate.
-/
import proofs.«148316_j34368328302902_1_alg».proof.Proof.Gen.KernelIdeal.Frame
import proofs.«148316_j34368328302902_1_alg».proof.Proof.Spec
import proofs.«148316_j34368328302902_1_alg».proof.Proof.SpecLaws
import Idealize.ShloMosaic.Lib.Pipeline.Value
import Idealize.ShloMosaic.Lib.ValueIdx
import Idealize.ShloMosaic.Lib.ValueLayout
import Idealize.ShloMosaic.PureOps.Ideal.Laws

noncomputable section

namespace Cert.Embed.Kernel

open Idealize.ShloMosaic Idealize.ShloMosaic.ValueIdx Cert.KernelIdeal Cert.KernelIdeal.Gen Cert.Embed

/-! ### Layout operations at an index -/

section Layout
variable {α : Type}

/-- A column `[512, 1]` broadcast along the rows reads the row's one entry. -/
theorem bcastCol_apply {n : Nat} (x : (⟨2, ![512, 1]⟩ : Shape).Idx → α)
    (h : (⟨2, ![512, 1]⟩ : Shape).Broadcasts ⟨2, ![512, n]⟩) (r : Fin 512) (d : Fin n) :
    broadcastTo ⟨2, ![512, n]⟩ x h (ix2 r d) = x (ix2 r 0) :=
  broadcastTo_apply x h (ix2 r d) (ix2 r 0) fun a => match a with
    | ⟨0, _⟩ => by show r.val = if (512 : Nat) = 1 then 0 else r.val; rw [if_neg (by decide)]
    | ⟨1, _⟩ => by show 0 = if (1 : Nat) = 1 then 0 else d.val; rw [if_pos rfl]

/-- A row `[1, n]` broadcast down the columns reads the column's one entry. -/
theorem bcastRow_apply {n : Nat} (x : (⟨2, ![1, n]⟩ : Shape).Idx → α)
    (h : (⟨2, ![1, n]⟩ : Shape).Broadcasts ⟨2, ![512, n]⟩) (r : Fin 512) (d : Fin n) :
    broadcastTo ⟨2, ![512, n]⟩ x h (ix2 r d) = x (ix2 0 d) :=
  broadcastTo_apply x h (ix2 r d) (ix2 0 d) fun a => match a with
    | ⟨0, _⟩ => by show 0 = if (1 : Nat) = 1 then 0 else r.val; rw [if_pos rfl]
    | ⟨1, _⟩ => by
      show d.val = if n = 1 then 0 else d.val
      split
      · have := d.isLt; omega
      · rfl

/-- A vector `[512]` viewed as a column `[512, 1]` reads its entry. -/
theorem castCol_apply (x : (⟨1, ![512]⟩ : Shape).Idx → α)
    (h : (⟨1, ![512]⟩ : Shape).ShapeCasts ⟨2, ![512, 1]⟩) (r : Fin 512) :
    shapeCast ⟨2, ![512, 1]⟩ x h (ix2 r 0) = x (ix1 r) :=
  shapeCast_apply x h (ix2 r 0) (ix1 r) (by
    rw [Shape.rowMajor_val_one, Shape.rowMajor_val_two]
    show r.val = r.val * 1 + 0
    omega)

/-- A block of 512 columns cut out of `[512, 2048]` at column `c` reads the column moved by `c`. -/
theorem sliceCols_apply (c : Nat) (x : (⟨2, ![512, 2048]⟩ : Shape).Idx → α)
    (h : (⟨2, ![512, 2048]⟩ : Shape).Slices ![0, c] ⟨2, ![512, 512]⟩) (r d : Fin 512) (g : Fin 2048)
    (hg : g.val = c + d.val) :
    extractStridedSlice ⟨2, ![512, 512]⟩ ![0, c] x h (ix2 r d) = x (ix2 r g) :=
  extractStridedSlice_apply ![0, c] x h (ix2 r d) (ix2 r g) fun a => match a with
    | ⟨0, _⟩ => by show r.val = 0 + r.val; omega
    | ⟨1, _⟩ => by show g.val = c + d.val; exact hg

end Layout

/-! ### The lane sum, the column coordinate, the product into the zero block -/

/-- The lane sum of a `[512, 512]` block along its rows, at row `r`. -/
theorem rowSum_apply (v : FVec Ideal S512x512 .f32) (h : S512x512.Reduces [1] S512) (hφ : FKind.Formats .f32)
    (hacc : (0x00000000#32 : BitVec 32) = 0x00000000#32) (r : Fin 512) :
    multiReduction (F := Ideal) .add [1] S512 v 0x00000000#32 h hφ hacc (ix1 r) = ∑ k : Fin 512, v (ix2 r k) :=
  (Ideal.multiReduction_add_single v 0x00000000#32 h hφ hacc (ix1 r)).trans
    (Finset.sum_congr rfl fun k _ => congrArg v (funext fun a => Fin.ext (by
      match a with
      | ⟨0, _⟩ => rfl
      | ⟨1, _⟩ => rfl)))

/-- The column coordinate as a 32-bit word. -/
theorem iotaCol_apply (h : S512x1024.Iotas .tc 32 [1]) (r : Fin 512) (j : Fin 1024) :
    iota .tc S512x1024 32 [1] h (ix2 r j) = BitVec.ofNat 32 j.val :=
  iota_single_apply .tc S512x1024 32 1 h (ix2 r j)

/-- The product's operand indices at an output index and a contraction index, axis by axis: the left operand's row is the
    output's row, the right operand's row is the output's column, and both operands' columns are the contraction's one
    coordinate. -/
theorem lhsD_0 (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem lhsD_1 (i : S512x2048.Idx) (q : dot_S512x1024_S2048x1024_S512x2048_1_1_0_0_n_n.contr.Idx) :
    (dot_S512x1024_S2048x1024_S512x2048_1_1_0_0_n_n.lhsIdx i q 1).val = (q ⟨0, by decide⟩).val :=
  dot_S512x1024_S2048x1024_S512x2048_1_1_0_0_n_n.lhsIdx_val_of_single rfl i q
theorem rhsD_0 (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem rhsD_1 (i : S512x2048.Idx) (q : dot_S512x1024_S2048x1024_S512x2048_1_1_0_0_n_n.contr.Idx) :
    (dot_S512x1024_S2048x1024_S512x2048_1_1_0_0_n_n.rhsIdx i q 1).val = (q ⟨0, by decide⟩).val :=
  dot_S512x1024_S2048x1024_S512x2048_1_1_0_0_n_n.rhsIdx_val_of_single rfl i q

/-- The product into the zero block, at row `r` and gate column `g`: row `r` of the left block against row `g` of the
    right one. -/
theorem matmul_row_apply (lhs : FVec Ideal S512x1024 .bf16) (rhs : FVec Ideal S2048x1024 .bf16) (r : Fin 512) (g : Fin 2048) :
    matmul dot_S512x1024_S2048x1024_S512x2048_1_1_0_0_n_n none lhs rhs (constant (F := Ideal) S512x2048 .f32 0x00000000#32) (ix2 r g)
      = ∑ k : Fin 1024, lhs (ix2 r k) * rhs (ix2 g k) := by
  simp only [matmul]
  rw [Ideal.matmul_constant_zero_apply, ← Equiv.sum_comp (ValueIdx.contrEquiv1 dot_S512x1024_S2048x1024_S512x2048_1_1_0_0_n_n 1024 rfl rfl).symm]
  refine Finset.sum_congr rfl fun k _ => ?_
  have hk := ValueIdx.contrEquiv1_symm_val dot_S512x1024_S2048x1024_S512x2048_1_1_0_0_n_n 1024 rfl rfl k
  have el : dot_S512x1024_S2048x1024_S512x2048_1_1_0_0_n_n.lhsIdx (ix2 r g) ((ValueIdx.contrEquiv1 dot_S512x1024_S2048x1024_S512x2048_1_1_0_0_n_n 1024 rfl rfl).symm k) = ix2 r k := funext fun a => Fin.ext (by
    match a with
    | ⟨0, _⟩ => exact lhsD_0 _ _
    | ⟨1, _⟩ => exact (lhsD_1 _ _).trans hk)
  have er : dot_S512x1024_S2048x1024_S512x2048_1_1_0_0_n_n.rhsIdx (ix2 r g) ((ValueIdx.contrEquiv1 dot_S512x1024_S2048x1024_S512x2048_1_1_0_0_n_n 1024 rfl rfl).symm k) = ix2 g k := funext fun a => Fin.ext (by
    match a with
    | ⟨0, _⟩ => exact rhsD_0 _ _
    | ⟨1, _⟩ => exact (rhsD_1 _ _).trans hk)
  rw [el, er]

/-! ### The hidden block -/

/-- The one-hot block of a column of words: entry `(r, j)` compares row `r`'s word with the word of `j`. -/
def hotBlock (v : Vec Ideal S512x1 .i32) : FVec Ideal S512x1024 .bf16 :=
  truncf .bf16 (sitofp .f32 (extui 32 (cmpi .eq
    (broadcastTo S512x1024 (shapeCast S512x1 v shapeCasts_S512x1_S512x1) broadcasts_S512x1_S512x1024)
    (iota .tc S512x1024 32 [1] iota_S512x1024_d1_w32)) natLt_1_32)) bitsLt_bf16_f32

/-- Entry `(r, j)` of the one-hot block is the one-hot entry `j` of row `r`'s word: the compare bit, widened to 32 bits,
    read signed and converted, is the bit as a number. -/
theorem hotBlock_apply (v : Vec Ideal S512x1 .i32) (r : Fin 512) (j : Fin 1024) :
    hotBlock v (ix2 r j) = onehot (v (ix2 r 0)) j.val := by
  show ((((IntOp.cmpi .eq
      (broadcastTo S512x1024 (shapeCast S512x1 v shapeCasts_S512x1_S512x1) broadcasts_S512x1_S512x1024 (ix2 r j))
      (iota .tc S512x1024 32 [1] iota_S512x1024_d1_w32 (ix2 r j))).setWidth 32).toInt : ℝ) : EReal) = _
  rw [bcastCol_apply, shapeCast_self, iotaCol_apply]
  exact hot_signed _

/-- The block of gate pre-activations: the two one-hot products, the load term, the bias. -/
def pre (v1 v8 : Vec Ideal S512x1 .i32) (v15 v18 : Vec Ideal S2048x1024 .bf16) (v22 : Vec Ideal S512x1 .f32)
    (v24 v30 : Vec Ideal S1x2048 .f32) : FVec Ideal S512x2048 .f32 :=
  addf (addf (addf
      (matmul dot_S512x1024_S2048x1024_S512x2048_1_1_0_0_n_n none (hotBlock v1)
        (shapeCast S2048x1024 v15 shapeCasts_S2048x1024_S2048x1024 : FVec Ideal S2048x1024 .bf16) (constant S512x2048 .f32 0x00000000#32))
      (matmul dot_S512x1024_S2048x1024_S512x2048_1_1_0_0_n_n none (hotBlock v8)
        (shapeCast S2048x1024 v18 shapeCasts_S2048x1024_S2048x1024 : FVec Ideal S2048x1024 .bf16) (constant S512x2048 .f32 0x00000000#32)))
      (mulf (broadcastTo S512x2048 (shapeCast S512x1 v22 shapeCasts_S512x1_S512x1) broadcasts_S512x1_S512x2048)
        (broadcastTo S512x2048 (shapeCast S1x2048 v24 shapeCasts_S1x2048_S1x2048) broadcasts_S1x2048_S512x2048)))
    (broadcastTo S512x2048 (shapeCast S1x2048 v30 shapeCasts_S1x2048_S1x2048) broadcasts_S1x2048_S512x2048)

/-- Row `r`, gate column `g` of the pre-activations is the gate as the kernel forms it, of row `r`'s three operands and
    of row `g` of the two weight blocks, entry `g` of the load weights and of the bias. -/
theorem pre_apply (v1 v8 : Vec Ideal S512x1 .i32) (v15 v18 : Vec Ideal S2048x1024 .bf16) (v22 : Vec Ideal S512x1 .f32)
    (v24 v30 : Vec Ideal S1x2048 .f32) (r : Fin 512) (g : Fin 2048) :
    pre v1 v8 v15 v18 v22 v24 v30 (ix2 r g)
      = gateK (v1 (ix2 r 0)) (v8 (ix2 r 0)) (v22 (ix2 r 0)) (fun j => v15 (ix2 g j)) (fun j => v18 (ix2 g j))
          (v24 (ix2 0 g)) (v30 (ix2 0 g)) := by
  show ((matmul dot_S512x1024_S2048x1024_S512x2048_1_1_0_0_n_n none (hotBlock v1)
          (shapeCast S2048x1024 v15 shapeCasts_S2048x1024_S2048x1024 : FVec Ideal S2048x1024 .bf16) (constant (F := Ideal) S512x2048 .f32 0x00000000#32) (ix2 r g)
        + matmul dot_S512x1024_S2048x1024_S512x2048_1_1_0_0_n_n none (hotBlock v8)
          (shapeCast S2048x1024 v18 shapeCasts_S2048x1024_S2048x1024 : FVec Ideal S2048x1024 .bf16) (constant (F := Ideal) S512x2048 .f32 0x00000000#32) (ix2 r g))
      + broadcastTo S512x2048 (shapeCast S512x1 v22 shapeCasts_S512x1_S512x1) broadcasts_S512x1_S512x2048 (ix2 r g)
        * broadcastTo S512x2048 (shapeCast S1x2048 v24 shapeCasts_S1x2048_S1x2048) broadcasts_S1x2048_S512x2048 (ix2 r g))
      + broadcastTo S512x2048 (shapeCast S1x2048 v30 shapeCasts_S1x2048_S1x2048) broadcasts_S1x2048_S512x2048 (ix2 r g) = _
  rw [matmul_row_apply, matmul_row_apply, bcastCol_apply, bcastRow_apply, bcastRow_apply]
  simp only [shapeCast_self, hotBlock_apply]
  rfl

/-- The hidden block is the cell of three column blocks of the pre-activations. -/
theorem pay2_eq (v1 v8 : Vec Ideal S512x1 .i32) (v15 v18 : Vec Ideal S2048x1024 .bf16) (v22 : Vec Ideal S512x1 .f32)
    (v24 v30 : Vec Ideal S1x2048 .f32) :
    k0_pay2 (F := Ideal) v1 v8 v15 v18 v22 v24 v30
      = mulf (logistic (extractStridedSlice S512x512 ![0, 1536] (pre v1 v8 v15 v18 v22 v24 v30) slices_S512x2048_o0_1536_S512x512))
          (tanh (mulf (logistic (extractStridedSlice S512x512 ![0, 0] (pre v1 v8 v15 v18 v22 v24 v30) slices_S512x2048_o0_0_S512x512))
            (tanh (extractStridedSlice S512x512 ![0, 1024] (pre v1 v8 v15 v18 v22 v24 v30) slices_S512x2048_o0_1024_S512x512)))) := rfl

/-- Row `r`, column `d` of the hidden block is the cell of the row's input, candidate and output gates at `d`. -/
theorem pay2_apply (v1 v8 : Vec Ideal S512x1 .i32) (v15 v18 : Vec Ideal S2048x1024 .bf16) (v22 : Vec Ideal S512x1 .f32)
    (v24 v30 : Vec Ideal S1x2048 .f32) (r d : Fin 512) :
    k0_pay2 (F := Ideal) v1 v8 v15 v18 v22 v24 v30 (ix2 r d)
      = hidden (fun g => gateK (v1 (ix2 r 0)) (v8 (ix2 r 0)) (v22 (ix2 r 0)) (fun j => v15 (ix2 g j)) (fun j => v18 (ix2 g j))
          (v24 (ix2 0 g)) (v30 (ix2 0 g))) d := by
  rw [pay2_eq]
  show Ideal.logistic (extractStridedSlice S512x512 ![0, 1536] (pre v1 v8 v15 v18 v22 v24 v30) slices_S512x2048_o0_1536_S512x512 (ix2 r d))
      * Ideal.tanh (Ideal.logistic (extractStridedSlice S512x512 ![0, 0] (pre v1 v8 v15 v18 v22 v24 v30) slices_S512x2048_o0_0_S512x512 (ix2 r d))
        * Ideal.tanh (extractStridedSlice S512x512 ![0, 1024] (pre v1 v8 v15 v18 v22 v24 v30) slices_S512x2048_o0_1024_S512x512 (ix2 r d))) = _
  rw [sliceCols_apply 1536 _ _ r d (colO d) rfl, sliceCols_apply 0 _ _ r d (colI d) (Nat.zero_add _).symm,
    sliceCols_apply 1024 _ _ r d (colG d) rfl, pre_apply, pre_apply, pre_apply]
  rfl

/-! ### The normalization -/

/-- The column of row means of a block. -/
def meanCol (h : FVec Ideal S512x512 .f32) : FVec Ideal S512x1 .f32 :=
  divf (shapeCast S512x1 (multiReduction .add [1] S512 h 0x00000000#32 reduces_S512x512_S512 (.inl rfl) rfl) shapeCasts_S512_S512x1)
    (broadcast S512x1 (Scalar.ofBits .f32 0x44000000#32))

/-- Row `r` of the mean column is the mean of row `r`. -/
theorem meanCol_apply (h : FVec Ideal S512x512 .f32) (r : Fin 512) :
    meanCol h (ix2 r 0) = mean fun k => h (ix2 r k) := by
  show Ideal.div (shapeCast S512x1 (multiReduction (F := Ideal) .add [1] S512 h 0x00000000#32 reduces_S512x512_S512 (.inl rfl) rfl)
      shapeCasts_S512_S512x1 (ix2 r 0)) (Ideal.ofBits .f32 0x44000000#32) = _
  rw [castCol_apply, rowSum_apply]
  rfl

/-- The block centred row by row. -/
def centred (h : FVec Ideal S512x512 .f32) : FVec Ideal S512x512 .f32 :=
  subf h (broadcastTo S512x512 (meanCol h) broadcasts_S512x1_S512x512)

/-- Entry `(r, k)` of the centred block is the entry less the mean of its row. -/
theorem centred_apply (h : FVec Ideal S512x512 .f32) (r k : Fin 512) :
    centred h (ix2 r k) = h (ix2 r k) - mean fun k => h (ix2 r k) := by
  show h (ix2 r k) - broadcastTo S512x512 (meanCol h) broadcasts_S512x1_S512x512 (ix2 r k) = _
  rw [bcastCol_apply, meanCol_apply]

/-- The column of row variances of a block. -/
def varCol (h : FVec Ideal S512x512 .f32) : FVec Ideal S512x1 .f32 :=
  divf (shapeCast S512x1 (multiReduction .add [1] S512 (mulf (centred h) (centred h)) 0x00000000#32 reduces_S512x512_S512 (.inl rfl) rfl)
      shapeCasts_S512_S512x1)
    (broadcast S512x1 (Scalar.ofBits .f32 0x44000000#32))

/-- Row `r` of the variance column is the variance of row `r`. -/
theorem varCol_apply (h : FVec Ideal S512x512 .f32) (r : Fin 512) :
    varCol h (ix2 r 0) = var fun k => h (ix2 r k) := by
  show Ideal.div (shapeCast S512x1 (multiReduction (F := Ideal) .add [1] S512 (mulf (centred h) (centred h)) 0x00000000#32
      reduces_S512x512_S512 (.inl rfl) rfl) shapeCasts_S512_S512x1 (ix2 r 0)) (Ideal.ofBits .f32 0x44000000#32) = _
  rw [castCol_apply, rowSum_apply]
  show Ideal.div (∑ k : Fin 512, centred h (ix2 r k) * centred h (ix2 r k)) c512 = _
  simp only [centred_apply]
  rfl

/-- The stored block is the hidden block centred, scaled by the reciprocal root of the offset variance, then by the
    scale row, and shifted by the shift row. -/
theorem pay1_eq (h : FVec Ideal S512x512 .f32) (v61 v65 : Vec Ideal S1x512 .f32) :
    k0_pay1 (F := Ideal) h v61 v65
      = addf (mulf (mulf (centred h)
            (broadcastTo S512x512 (rsqrt (addf (varCol h) (broadcast S512x1 (Scalar.ofBits .f32 0x3727C5AC#32)))) broadcasts_S512x1_S512x512))
          (broadcastTo S512x512 (shapeCast S1x512 v61 shapeCasts_S1x512_S1x512 : FVec Ideal S1x512 .f32) broadcasts_S1x512_S512x512))
        (broadcastTo S512x512 (shapeCast S1x512 v65 shapeCasts_S1x512_S1x512 : FVec Ideal S1x512 .f32) broadcasts_S1x512_S512x512) := rfl

/-- Row `r`, column `d` of the stored block is the normalized value of row `r` of the hidden block at `d`, with the scale
    and the shift of column `d`. -/
theorem pay1_apply (h : FVec Ideal S512x512 .f32) (v61 v65 : Vec Ideal S1x512 .f32) (r d : Fin 512) :
    k0_pay1 (F := Ideal) h v61 v65 (ix2 r d) = normK (fun k => h (ix2 r k)) (v61 (ix2 0 d)) (v65 (ix2 0 d)) d := by
  rw [pay1_eq]
  show centred h (ix2 r d)
        * broadcastTo S512x512 (rsqrt (addf (varCol h) (broadcast S512x1 (Scalar.ofBits .f32 0x3727C5AC#32)))) broadcasts_S512x1_S512x512 (ix2 r d)
        * broadcastTo S512x512 (shapeCast S1x512 v61 shapeCasts_S1x512_S1x512 : FVec Ideal S1x512 .f32) broadcasts_S1x512_S512x512 (ix2 r d)
      + broadcastTo S512x512 (shapeCast S1x512 v65 shapeCasts_S1x512_S1x512 : FVec Ideal S1x512 .f32) broadcasts_S1x512_S512x512 (ix2 r d) = _
  rw [bcastCol_apply, bcastRow_apply, bcastRow_apply, shapeCast_self, shapeCast_self, centred_apply]
  show (h (ix2 r d) - mean fun k => h (ix2 r k)) * Ideal.rsqrt (varCol h (ix2 r 0) + ceps) * v61 (ix2 0 d) + v65 (ix2 0 d) = _
  rw [varCol_apply]
  rfl

/-- The zero offsets of a whole-block access. -/
theorem zero2 : (![0, 0] : Fin 2 → Nat) = fun _ => 0 := funext fun a => by fin_cases a <;> rfl

/-! ### The row -/

/-- Row `r`, column `d` of the block the body stores is `rowK` of row `r` of the per-row operands and of the shared
    operands: the body's one store covers its whole buffer and its loads read whole buffers, so the block is the second
    stretch's value of the first stretch's. -/
theorem out_row (x0 x1 : Vec Ideal S512x1 .i32) (x2 : Vec Ideal S512x1 .f32) (x3 x4 : Vec Ideal S2048x1024 .bf16)
    (x5 x6 : Vec Ideal S1x2048 .f32) (x7 x8 : Vec Ideal S1x512 .f32) (r d : Fin 512) :
    out0_9 (F := Ideal) x0 x1 x2 x3 x4 x5 x6 x7 x8 (ix2 r d)
      = rowK (x0 (ix2 r 0)) (x1 (ix2 r 0)) (x2 (ix2 r 0)) (fun g j => x3 (ix2 g j)) (fun g j => x4 (ix2 g j))
          (fun g => x5 (ix2 0 g)) (fun g => x6 (ix2 0 g)) (fun e => x7 (ix2 0 e)) (fun e => x8 (ix2 0 e)) d := by
  unfold out0_9
  rw [View.canon_unit_zero zero2]
  simp only [View.ld_unit_zero (S := S512x1) zero2, View.ld_unit_zero (S := S2048x1024) zero2,
    View.ld_unit_zero (S := S1x2048) zero2, View.ld_unit_zero (S := S1x512) zero2]
  rw [pay1_apply]
  exact congrArg (fun h => normK h (x7 (ix2 0 d)) (x8 (ix2 0 d)) d)
    (funext fun k => pay2_apply x0 x1 x3 x4 x2 x5 x6 r k)

end Cert.Embed.Kernel

end
-- ==== Proof.KernelArr.lean ====
/-
  The array the pallas_call leaves behind, row by row.

  The grid has 64 points; point `t` works on rows `512 t … 512 t + 511` of the flattened (vehicle, slot) axis. Its three
  per-row operands are blocks `t` of their arrays, its six shared operands are their arrays whole, and it writes block `t`
  of the output. So every row `R` of the output array is written exactly once, by point `R / 512`, and holds `rowK` of
  row `R` of the per-row arrays and of the shared arrays: the blocks are restrictions of ONE function of the arrays the
  region finds, and they tile the output.
-/
import proofs.«148316_j34368328302902_1_alg».proof.Proof.Gen.KernelIdeal.Frame
import proofs.«148316_j34368328302902_1_alg».proof.Proof.Spec
import proofs.«148316_j34368328302902_1_alg».proof.Proof.KernelRow
import Idealize.ShloMosaic.Lib.Pipeline.Value
import Idealize.ShloMosaic.Lib.ValueIdx

set_option maxRecDepth 16384

noncomputable section

namespace Cert.Embed.KernelArr

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Embed

variable (m : (ℓ : Loc nD τ sig) → Buf (Elt Ideal) ℓ)

/-- Row `R`, column `d` of the output: `rowK` of row `R` of the node words, the time words and the scaled loads, and of the
    two padded weight blocks, the load weights, the summed bias, the scale and the shift as the region finds them. -/
def rowAt (c : Dev nD) (R : Fin 32768) (d : Fin 512) : EReal :=
  rowK (V m c main_v0 (ix2 R 0)) (V m c main_v7 (ix2 R 0)) (V m c main_v3 (ix2 R 0))
    (fun g j => V m c main_v10 (ix2 g j)) (fun g j => V m c main_v12 (ix2 g j))
    (fun g => V m c main_v15 (ix2 0 g)) (fun g => V m c main_v17 (ix2 0 g))
    (fun e => V m c main_v18 (ix2 0 e)) (fun e => V m c main_v19 (ix2 0 e)) d

/-- The whole output array. -/
def rowsOut (c : Dev nD) : S32768x512.Idx → EReal := fun i => rowAt m c (i 0) (i 1)

/-- The block the body stores, at any index of the block. -/
theorem out_at (x0 x1 : Vec Ideal S512x1 .i32) (x2 : Vec Ideal S512x1 .f32) (x3 x4 : Vec Ideal S2048x1024 .bf16)
    (x5 x6 : Vec Ideal S1x2048 .f32) (x7 x8 : Vec Ideal S1x512 .f32) (y : S512x512.Idx) :
    out0_9 (F := Ideal) x0 x1 x2 x3 x4 x5 x6 x7 x8 y
      = rowK (x0 (ix2 (y 0) 0)) (x1 (ix2 (y 0) 0)) (x2 (ix2 (y 0) 0)) (fun g j => x3 (ix2 g j)) (fun g j => x4 (ix2 g j))
          (fun g => x5 (ix2 0 g)) (fun g => x6 (ix2 0 g)) (fun e => x7 (ix2 0 e)) (fun e => x8 (ix2 0 e)) (y 1) := by
  obtain ⟨r, d, rfl⟩ : ∃ (r d : Fin 512), y = ix2 r d := ⟨y 0, y 1, eq_ix2 y⟩
  exact Cert.Embed.Kernel.out_row x0 x1 x2 x3 x4 x5 x6 x7 x8 r d

/-- The printed index maps, decided over the grid: the per-row windows and the output move one block of 512 rows per
    point; the shared windows stay on their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem t_lt (t : Fin cfg0.N) : t.val < 64 := t.isLt.trans_eq (show cfg0.N = 64 from N_0)

/-- Row `512 t + r` of the flattened axis. -/
def rowOf (t : Fin cfg0.N) (r : Fin 512) : Fin 32768 := ⟨512 * t.val + r.val, by have := t_lt t; have := r.isLt; omega⟩

/-! ### The input blocks at a point, read off their arrays -/

theorem blk0 (c : Dev nD) (t : Fin cfg0.N) (r : Fin 512) : iblk m c 0 t (ix2 r 0) = V m c main_v0 (ix2 (rowOf t r) 0) := by
  obtain ⟨e0, e1, -⟩ := idx_facts t
  show V m c main_v0 (((cfg0.win 0).blk t).view.emb (ix2 r 0)) = V m c main_v0 (ix2 (rowOf t r) 0)
  refine congrArg (V m c main_v0) (funext fun a => Fin.ext ?_)
  match a with
  | ⟨0, _⟩ => show win0_0.index t (0 : Fin 2) * 512 + 1 * r.val = 512 * t.val + r.val; omega
  | ⟨1, _⟩ => show win0_0.index t (1 : Fin 2) * 1 + 1 * 0 = 0; omega

theorem blk1 (c : Dev nD) (t : Fin cfg0.N) (r : Fin 512) : iblk m c 1 t (ix2 r 0) = V m c main_v7 (ix2 (rowOf t r) 0) := by
  obtain ⟨-, -, e0, e1, -⟩ := idx_facts t
  show V m c main_v7 (((cfg0.win 1).blk t).view.emb (ix2 r 0)) = V m c main_v7 (ix2 (rowOf t r) 0)
  refine congrArg (V m c main_v7) (funext fun a => Fin.ext ?_)
  match a with
  | ⟨0, _⟩ => show win0_1.index t (0 : Fin 2) * 512 + 1 * r.val = 512 * t.val + r.val; omega
  | ⟨1, _⟩ => show win0_1.index t (1 : Fin 2) * 1 + 1 * 0 = 0; omega

theorem blk2 (c : Dev nD) (t : Fin cfg0.N) (r : Fin 512) : iblk m c 2 t (ix2 r 0) = V m c main_v3 (ix2 (rowOf t r) 0) := by
  obtain ⟨-, -, -, -, e0, e1, -⟩ := idx_facts t
  show V m c main_v3 (((cfg0.win 2).blk t).view.emb (ix2 r 0)) = V m c main_v3 (ix2 (rowOf t r) 0)
  refine congrArg (V m c main_v3) (funext fun a => Fin.ext ?_)
  match a with
  | ⟨0, _⟩ => show win0_2.index t (0 : Fin 2) * 512 + 1 * r.val = 512 * t.val + r.val; omega
  | ⟨1, _⟩ => show win0_2.index t (1 : Fin 2) * 1 + 1 * 0 = 0; omega

theorem blk3 (c : Dev nD) (t : Fin cfg0.N) (g : Fin 2048) (j : Fin 1024) : iblk m c 3 t (ix2 g j) = V m c main_v10 (ix2 g j) := by
  obtain ⟨-, -, -, -, -, -, e0, e1, -⟩ := idx_facts t
  show V m c main_v10 (((cfg0.win 3).blk t).view.emb (ix2 g j)) = V m c main_v10 (ix2 g j)
  refine congrArg (V m c main_v10) (funext fun a => Fin.ext ?_)
  match a with
  | ⟨0, _⟩ => show win0_3.index t (0 : Fin 2) * 2048 + 1 * g.val = g.val; omega
  | ⟨1, _⟩ => show win0_3.index t (1 : Fin 2) * 1024 + 1 * j.val = j.val; omega

theorem blk4 (c : Dev nD) (t : Fin cfg0.N) (g : Fin 2048) (j : Fin 1024) : iblk m c 4 t (ix2 g j) = V m c main_v12 (ix2 g j) := by
  obtain ⟨-, -, -, -, -, -, -, -, e0, e1, -⟩ := idx_facts t
  show V m c main_v12 (((cfg0.win 4).blk t).view.emb (ix2 g j)) = V m c main_v12 (ix2 g j)
  refine congrArg (V m c main_v12) (funext fun a => Fin.ext ?_)
  match a with
  | ⟨0, _⟩ => show win0_4.index t (0 : Fin 2) * 2048 + 1 * g.val = g.val; omega
  | ⟨1, _⟩ => show win0_4.index t (1 : Fin 2) * 1024 + 1 * j.val = j.val; omega

theorem blk5 (c : Dev nD) (t : Fin cfg0.N) (g : Fin 2048) : iblk m c 5 t (ix2 0 g) = V m c main_v15 (ix2 0 g) := by
  obtain ⟨-, -, -, -, -, -, -, -, -, -, e0, e1, -⟩ := idx_facts t
  show V m c main_v15 (((cfg0.win 5).blk t).view.emb (ix2 0 g)) = V m c main_v15 (ix2 0 g)
  refine congrArg (V m c main_v15) (funext fun a => Fin.ext ?_)
  match a with
  | ⟨0, _⟩ => show win0_5.index t (0 : Fin 2) * 1 + 1 * 0 = 0; omega
  | ⟨1, _⟩ => show win0_5.index t (1 : Fin 2) * 2048 + 1 * g.val = g.val; omega

theorem blk6 (c : Dev nD) (t : Fin cfg0.N) (g : Fin 2048) : iblk m c 6 t (ix2 0 g) = V m c main_v17 (ix2 0 g) := by
  obtain ⟨-, -, -, -, -, -, -, -, -, -, -, -, e0, e1, -⟩ := idx_facts t
  show V m c main_v17 (((cfg0.win 6).blk t).view.emb (ix2 0 g)) = V m c main_v17 (ix2 0 g)
  refine congrArg (V m c main_v17) (funext fun a => Fin.ext ?_)
  match a with
  | ⟨0, _⟩ => show win0_6.index t (0 : Fin 2) * 1 + 1 * 0 = 0; omega
  | ⟨1, _⟩ => show win0_6.index t (1 : Fin 2) * 2048 + 1 * g.val = g.val; omega

theorem blk7 (c : Dev nD) (t : Fin cfg0.N) (e : Fin 512) : iblk m c 7 t (ix2 0 e) = V m c main_v18 (ix2 0 e) := by
  obtain ⟨-, -, -, -, -, -, -, -, -, -, -, -, -, -, e0, e1, -⟩ := idx_facts t
  show V m c main_v18 (((cfg0.win 7).blk t).view.emb (ix2 0 e)) = V m c main_v18 (ix2 0 e)
  refine congrArg (V m c main_v18) (funext fun a => Fin.ext ?_)
  match a with
  | ⟨0, _⟩ => show win0_7.index t (0 : Fin 2) * 1 + 1 * 0 = 0; omega
  | ⟨1, _⟩ => show win0_7.index t (1 : Fin 2) * 512 + 1 * e.val = e.val; omega

theorem blk8 (c : Dev nD) (t : Fin cfg0.N) (e : Fin 512) : iblk m c 8 t (ix2 0 e) = V m c main_v19 (ix2 0 e) := by
  obtain ⟨-, -, -, -, -, -, -, -, -, -, -, -, -, -, -, -, e0, e1, -⟩ := idx_facts t
  show V m c main_v19 (((cfg0.win 8).blk t).view.emb (ix2 0 e)) = V m c main_v19 (ix2 0 e)
  refine congrArg (V m c main_v19) (funext fun a => Fin.ext ?_)
  match a with
  | ⟨0, _⟩ => show win0_8.index t (0 : Fin 2) * 1 + 1 * 0 = 0; omega
  | ⟨1, _⟩ => show win0_8.index t (1 : Fin 2) * 512 + 1 * e.val = e.val; omega

/-- `rowK` of the blocks at point `t`, row `r`, is the output's row `512 t + r`. -/
theorem rowK_blocks (c : Dev nD) (t : Fin cfg0.N) (r d : Fin 512) :
    rowK (iblk m c 0 t (ix2 r 0)) (iblk m c 1 t (ix2 r 0)) (iblk m c 2 t (ix2 r 0))
        (fun g j => iblk m c 3 t (ix2 g j)) (fun g j => iblk m c 4 t (ix2 g j))
        (fun g => iblk m c 5 t (ix2 0 g)) (fun g => iblk m c 6 t (ix2 0 g))
        (fun e => iblk m c 7 t (ix2 0 e)) (fun e => iblk m c 8 t (ix2 0 e)) d
      = rowAt m c (rowOf t r) d := by
  unfold rowAt
  rw [blk0, blk1, blk2]
  simp only [blk3, blk4, blk5, blk6, blk7, blk8]

/-! ### What a point writes back, the cover, the array -/

/-- WHAT POINT `t` WRITES BACK is block `t` of `rowsOut`. -/
theorem flushed_eq (c : Dev nD) (t : Fin cfg0.N) :
    (dats m 0 c).flushed 9 t = ((cfg0.win 9).blk t).view.read (Elt Ideal) (rowsOut m c) := by
  show (cfg0.win 9).cut (grid0.coords t) ((dats m 0 c).after 9 t) = _
  rw [after0_9]
  obtain ⟨-, -, -, -, -, -, -, -, -, -, -, -, -, -, -, -, -, -, e0, e1⟩ := idx_facts t
  funext j
  show out0_9 (iblk m c 0 t) (iblk m c 1 t) (iblk m c 2 t) (iblk m c 3 t) (iblk m c 4 t) (iblk m c 5 t) (iblk m c 6 t) (iblk m c 7 t) (iblk m c 8 t) j
    = rowAt m c ((((cfg0.win 9).blk t).view.emb j) 0) ((((cfg0.win 9).blk t).view.emb j) 1)
  refine (out_at _ _ _ _ _ _ _ _ _ j).trans ((rowK_blocks m c t (j 0) (j 1)).trans ?_)
  have h0 : rowOf t (j 0) = (((cfg0.win 9).blk t).view.emb j) 0 := Fin.ext (by
    show 512 * t.val + (j 0).val = win0_9.index t (0 : Fin 2) * 512 + 1 * (j 0).val; omega)
  have h1 : (j 1 : Fin 512) = (((cfg0.win 9).blk t).view.emb j) 1 := Fin.ext (by
    show (j 1).val = win0_9.index t (1 : Fin 2) * 512 + 1 * (j 1).val; omega)
  rw [h0, h1]

/-- An index of the array is in point `t`'s block iff each coordinate is in the block's range on its axis. -/
theorem mem_blk (t : Fin cfg0.N) (i : S32768x512.Idx) :
    i ∈ ((cfg0.win 9).blk t).view.set ↔ ∀ a : Fin 2, win0_9.index t a * S512x512.size a ≤ (i a).val ∧ (i a).val < win0_9.index t a * S512x512.size a + S512x512.size a := by
  show i ∈ ((View.whole main_v20).slice (win0_9.rect t)).set ↔ _
  rw [View.set_slice_whole, Rect.mem_set_unit]
  exact Iff.rfl

/-- Every row lies in the block of the point `row / 512`. -/
theorem cover (i : S32768x512.Idx) : ∃ t : Fin cfg0.N, (cfg0.win 9).flush t = true ∧ i ∈ ((cfg0.win 9).blk t).view.set := by
  have hi0 : (i 0).val < 32768 := (i 0).isLt
  have hi1 : (i 1).val < 512 := (i 1).isLt
  let t : Fin cfg0.N := ⟨(i 0).val / 512, by rw [show cfg0.N = 64 from N_0]; omega⟩
  obtain ⟨-, -, -, -, -, -, -, -, -, -, -, -, -, -, -, -, -, -, e0, e1⟩ := idx_facts t
  have ht : t.val = (i 0).val / 512 := rfl
  refine ⟨t, flush0_9 t, ?_⟩
  rw [mem_blk]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 512 ≤ (i 1).val ∧ (i 1).val < win0_9.index t (1 : Fin 2) * 512 + 512; omega

/-- THE ARRAY after the region: `rowsOut`. -/
theorem final (c : Dev nD) : (dats m 0 c).arrAt 9 cfg0.N = rowsOut m c :=
  (dats m 0 c).arrAt_eq_of_cover 9 (rowsOut m c) (fun t _ => flushed_eq m c t) cover

end Cert.Embed.KernelArr

end
-- ==== Proof.KernelHost.lean ====
/-
  The arrays the pallas_call is launched on, as functions of the program's arguments.

  Before the call the program flattens the (vehicle, slot) axes of the node words and of the loads divided by the
  capacity (row `16 b + k` is vehicle `b`, slot `k`), clips the time words to `[0, 1022]` and repeats each vehicle's word
  over its 16 slots, cuts the weight matrix at the load column into the node block (columns 0 to 999, padded with 24
  zero columns) and the time block (columns 1001 to 2023, padded with one zero column), takes the load column itself,
  adds the two biases, and gives the scale and the shift a leading unit axis. Each is read here at an index.
-/
import proofs.«148316_j34368328302902_1_alg».proof.Proof.Gen.KernelIdeal.Frame
import proofs.«148316_j34368328302902_1_alg».proof.Proof.Spec
import proofs.«148316_j34368328302902_1_alg».proof.Proof.SpecLaws
import Idealize.ShloMosaic.Lib.StableHlo.Run
import Idealize.ShloMosaic.Lib.Pipeline.Value
import Idealize.ShloMosaic.Lib.ValueIdx
import Idealize.ShloMosaic.Lib.KernelVsHost

set_option maxRecDepth 16384

noncomputable section

namespace Cert.Embed.KernelHost

open Idealize.ShloMosaic Idealize.ShloMosaic.TcCoe Idealize.ShloMosaic.ValueIdx Idealize.SL.Sem Idealize.ShloMosaic.StableHlo
open Cert.KernelIdeal Cert.KernelIdeal.Gen Cert.Embed

variable (m : (ℓ : Loc nD τ sig) → Buf (Elt Ideal) ℓ)

/-- The flattened row of vehicle `b`, slot `k`. -/
def flat (b : Fin 2048) (k : Fin 16) : Fin 32768 := ⟨16 * b.val + k.val, by have := b.isLt; have := k.isLt; omega⟩

/-- Row `g` of the weight matrix. -/
abbrev wrow (c : Dev nD) (g : Fin 2048) : Fin 2024 → EReal := fun f => m ((c : Thread nD τ).loc main_arg3) (ix2 g f)

/-- Flattening [2048, 16] to [32768, 1] puts entry `(b, k)` at row `16 b + k`. -/
theorem flatten_apply {α : Type} (x : S2048x16.Idx → α) (b : Fin 2048) (k : Fin 16) :
    shapeCast S32768x1 x shapeCasts_S2048x16_S32768x1 (ix2 (flat b k) 0) = x (ix2 b k) :=
  shapeCast_apply x shapeCasts_S2048x16_S32768x1 (ix2 (flat b k) 0) (ix2 b k) (by
    rw [Shape.rowMajor_val_two, Shape.rowMajor_val_two]
    show b.val * 16 + k.val = (16 * b.val + k.val) * 1 + 0
    omega)

theorem v0_at (c : Dev nD) (b : Fin 2048) (k : Fin 16) :
    V m c main_v0 (ix2 (flat b k) 0) = m ((c : Thread nD τ).loc main_arg0) (ix2 b k) := by
  have e : V m c main_v0 = shapeCast S32768x1 (m ((c : Thread nD τ).loc main_arg0)) shapeCasts_S2048x16_S32768x1 := by
    dsimp only [Gen.V, Gen.V0]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results
    rfl
  rw [e]
  exact flatten_apply _ b k

theorem v3_at (c : Dev nD) (b : Fin 2048) (k : Fin 16) :
    V m c main_v3 (ix2 (flat b k) 0) = Ideal.div (m ((c : Thread nD τ).loc main_arg1) (ix2 b k)) c100 := by
  have e : V m c main_v3 = shapeCast S32768x1
      (Host.divf (F := Ideal) (m ((c : Thread nD τ).loc main_arg1))
        (broadcastInDim S2048x16 ![] bcast_S_S2048x16 (constant (F := Ideal) S_ .f32 0x42C80000#32)))
      shapeCasts_S2048x16_S32768x1 := by
    dsimp only [Gen.V, Gen.V0]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results
    rfl
  rw [e]
  exact flatten_apply _ b k

theorem v7_at (c : Dev nD) (b : Fin 2048) (k : Fin 16) :
    V m c main_v7 (ix2 (flat b k) 0) = clip (m ((c : Thread nD τ).loc main_arg2) (ix1 b)) := by
  have e : V m c main_v7 = shapeCast S32768x1
      (broadcastInDim S2048x16 ![0, 1] bcast_S2048x1_S2048x16_0_1
        (broadcastInDim S2048x1 ![0] bcast_S2048_S2048x1_0
          (minsi (broadcastInDim S2048 ![] bcast_S_S2048 (id (constantI S_ 32 1022#32)))
            (maxsi (broadcastInDim S2048 ![] bcast_S_S2048 (id (constantI S_ 32 0#32))) (m ((c : Thread nD τ).loc main_arg2))))))
      shapeCasts_S2048x16_S32768x1 := by
    dsimp only [Gen.V, Gen.V0]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results
    rfl
  rw [e, flatten_apply _ b k]
  refine (broadcastInDim_apply _ bcast_S2048x1_S2048x16_0_1 _ (ix2 b k) (ix2 b (0 : Fin 1)) (fun a => by
    match a with
    | ⟨0, _⟩ => show b.val = if (2048 : Nat) = 1 then 0 else b.val; rw [if_neg (by decide)]
    | ⟨1, _⟩ => show 0 = if (1 : Nat) = 1 then 0 else k.val; rw [if_pos rfl])).trans ?_
  refine (broadcastInDim_apply _ bcast_S2048_S2048x1_0 _ (ix2 b (0 : Fin 1)) (ix1 b) (fun a => by
    match a with
    | ⟨0, _⟩ => show b.val = if (2048 : Nat) = 1 then 0 else b.val; rw [if_neg (by decide)])).trans ?_
  show IntOp.minsi (broadcastInDim S2048 ![] bcast_S_S2048 (id (constantI S_ 32 1022#32)) (ix1 b))
      (IntOp.maxsi (broadcastInDim S2048 ![] bcast_S_S2048 (id (constantI S_ 32 0#32)) (ix1 b))
        (m ((c : Thread nD τ).loc main_arg2) (ix1 b))) = _
  rw [broadcastInDim_apply _ bcast_S_S2048 (id (constantI S_ 32 1022#32)) (ix1 b) ix0 (fun a => a.elim0),
    broadcastInDim_apply _ bcast_S_S2048 (id (constantI S_ 32 0#32)) (ix1 b) ix0 (fun a => a.elim0)]
  rfl

/-- The padding value: the integer zero converted to a float. -/
theorem padval : (sitofp (F := Ideal) .bf16 (constantI S_ 32 0#32)) (Shape.Idx.first h_S_) = (0 : EReal) := by
  show (((0#32 : BitVec 32).toInt : ℝ) : EReal) = 0
  rw [show (0#32 : BitVec 32).toInt = 0 by decide, Int.cast_zero, EReal.coe_zero]

theorem v10_at (c : Dev nD) (g : Fin 2048) (j : Fin 1024) :
    V m c main_v10 (ix2 g j) = if j.val < 1000 then Wn (wrow m c g) j.val else 0 := by
  have e : V m c main_v10 = pad S2048x1024 ![0, 0] ![0, 24] ![0, 0]
      (extractStridedSlice S2048x1000 ![0, 0] (truncf (F := Ideal) .bf16 (m ((c : Thread nD τ).loc main_arg3)) bitsLt_bf16_f32) slices_S2048x2024_S2048x1000_0_0)
      (sitofp (F := Ideal) .bf16 (constantI S_ 32 0#32)) pads_S2048x1000_S2048x1024_000_0240 h_S_ := by
    dsimp only [Gen.V, Gen.V0]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results
    rfl
  rw [e]
  by_cases h : j.val < 1000
  · rw [if_pos h]
    refine (pad_apply_of_inside _ _ _ _ _ pads_S2048x1000_S2048x1024_000_0240 h_S_ (ix2 g j) (ix2 g (⟨j.val, h⟩ : Fin 1000)) (fun a => by
      match a with
      | ⟨0, _⟩ => show g.val = 0 + g.val * (0 + 1); omega
      | ⟨1, _⟩ => show j.val = 0 + j.val * (0 + 1); omega)).trans ?_
    refine (extractStridedSlice_apply _ _ slices_S2048x2024_S2048x1000_0_0 (ix2 g (⟨j.val, h⟩ : Fin 1000)) (ix2 g (⟨j.val, by omega⟩ : Fin 2024)) (fun a => by
      match a with
      | ⟨0, _⟩ => show g.val = 0 + g.val; omega
      | ⟨1, _⟩ => show j.val = 0 + j.val; omega)).trans ?_
    unfold Wn
    rw [dif_pos (by omega : j.val < 2024)]
    rfl
  · rw [if_neg h]
    refine (pad_apply_of_not_inside _ _ _ _ _ pads_S2048x1000_S2048x1024_000_0240 h_S_ (ix2 g j) (1 : Fin 2) (fun hin => h ?_)).trans (padval)
    have h3 := hin.2.2
    have : (j.val - 0) / (0 + 1) < 1000 := h3
    omega

theorem v12_at (c : Dev nD) (g : Fin 2048) (j : Fin 1024) :
    V m c main_v12 (ix2 g j) = if j.val < 1023 then Wn (wrow m c g) (1001 + j.val) else 0 := by
  have e : V m c main_v12 = pad S2048x1024 ![0, 0] ![0, 1] ![0, 0]
      (extractStridedSlice S2048x1023 ![0, 1001] (truncf (F := Ideal) .bf16 (m ((c : Thread nD τ).loc main_arg3)) bitsLt_bf16_f32) slices_S2048x2024_S2048x1023_0_1001)
      (sitofp (F := Ideal) .bf16 (constantI S_ 32 0#32)) pads_S2048x1023_S2048x1024_000_010 h_S_ := by
    dsimp only [Gen.V, Gen.V0]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results
    rfl
  rw [e]
  by_cases h : j.val < 1023
  · rw [if_pos h]
    refine (pad_apply_of_inside _ _ _ _ _ pads_S2048x1023_S2048x1024_000_010 h_S_ (ix2 g j) (ix2 g (⟨j.val, h⟩ : Fin 1023)) (fun a => by
      match a with
      | ⟨0, _⟩ => show g.val = 0 + g.val * (0 + 1); omega
      | ⟨1, _⟩ => show j.val = 0 + j.val * (0 + 1); omega)).trans ?_
    refine (extractStridedSlice_apply _ _ slices_S2048x2024_S2048x1023_0_1001 (ix2 g (⟨j.val, h⟩ : Fin 1023)) (ix2 g (⟨1001 + j.val, by omega⟩ : Fin 2024)) (fun a => by
      match a with
      | ⟨0, _⟩ => show g.val = 0 + g.val; omega
      | ⟨1, _⟩ => show 1001 + j.val = 1001 + j.val; rfl)).trans ?_
    unfold Wn
    rw [dif_pos (by omega : 1001 + j.val < 2024)]
    rfl
  · rw [if_neg h]
    refine (pad_apply_of_not_inside _ _ _ _ _ pads_S2048x1023_S2048x1024_000_010 h_S_ (ix2 g j) (1 : Fin 2) (fun hin => h ?_)).trans (padval)
    have h3 := hin.2.2
    have : (j.val - 0) / (0 + 1) < 1023 := h3
    omega

theorem v15_at (c : Dev nD) (g : Fin 2048) : V m c main_v15 (ix2 0 g) = Wn (wrow m c g) 1000 := by
  have e : V m c main_v15 = shapeCast S1x2048
      (shapeCast S2048 (extractStridedSlice S2048x1 ![0, 1000] (m ((c : Thread nD τ).loc main_arg3)) slices_S2048x2024_S2048x1_0_1000) shapeCasts_S2048x1_S2048)
      shapeCasts_S2048_S1x2048 := by
    dsimp only [Gen.V, Gen.V0]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results
    rfl
  rw [e]
  refine (shapeCast_apply _ shapeCasts_S2048_S1x2048 (ix2 (0 : Fin 1) g) (ix1 g) (by
    rw [Shape.rowMajor_val_one, Shape.rowMajor_val_two]; show g.val = 0 * 2048 + g.val; omega)).trans ?_
  refine (shapeCast_apply _ shapeCasts_S2048x1_S2048 (ix1 g) (ix2 g (0 : Fin 1)) (by
    rw [Shape.rowMajor_val_one, Shape.rowMajor_val_two]; show g.val * 1 + 0 = g.val; omega)).trans ?_
  refine (extractStridedSlice_apply _ _ slices_S2048x2024_S2048x1_0_1000 (ix2 g (0 : Fin 1)) (ix2 g (⟨1000, by decide⟩ : Fin 2024)) (fun a => by
    match a with
    | ⟨0, _⟩ => show g.val = 0 + g.val; omega
    | ⟨1, _⟩ => show 1000 = 1000 + 0; rfl)).trans ?_
  unfold Wn
  rw [dif_pos (by decide : 1000 < 2024)]

/-- Giving a vector a leading unit axis keeps entry `g` at `(0, g)`. -/
theorem lead_apply {α : Type} {n : Nat} (x : (⟨1, ![n]⟩ : Shape).Idx → α) (h : (⟨1, ![n]⟩ : Shape).ShapeCasts ⟨2, ![1, n]⟩) (g : Fin n) :
    shapeCast (⟨2, ![1, n]⟩ : Shape) x h (ix2 (0 : Fin 1) g) = x (ix1 g) :=
  shapeCast_apply x h (ix2 (0 : Fin 1) g) (ix1 g) (by
    rw [Shape.rowMajor_val_one, Shape.rowMajor_val_two]; show g.val = 0 * n + g.val; omega)

/-- Entry `g` of the input-hidden bias and of the hidden-hidden bias. -/
abbrev bih (c : Dev nD) (g : Fin 2048) : EReal := m ((c : Thread nD τ).loc main_arg4) (ix1 g)
abbrev bhh (c : Dev nD) (g : Fin 2048) : EReal := m ((c : Thread nD τ).loc main_arg5) (ix1 g)

theorem v17_at (c : Dev nD) (g : Fin 2048) : V m c main_v17 (ix2 0 g) = bih m c g + bhh m c g := by
  have e : V m c main_v17 = shapeCast S1x2048
      (addf (F := Ideal) (s := S2048) (φ := .f32) (m ((c : Thread nD τ).loc main_arg4)) (m ((c : Thread nD τ).loc main_arg5))) shapeCasts_S2048_S1x2048 := by
    dsimp only [Gen.V, Gen.V0]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results
    rfl
  rw [e]
  exact lead_apply _ shapeCasts_S2048_S1x2048 g

theorem v18_at (c : Dev nD) (e' : Fin 512) : V m c main_v18 (ix2 0 e') = m ((c : Thread nD τ).loc main_arg6) (ix1 e') := by
  have e : V m c main_v18 = shapeCast S1x512 (m ((c : Thread nD τ).loc main_arg6)) shapeCasts_S512_S1x512 := by
    dsimp only [Gen.V, Gen.V0]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results
    rfl
  rw [e]
  exact lead_apply _ shapeCasts_S512_S1x512 e'

theorem v19_at (c : Dev nD) (e' : Fin 512) : V m c main_v19 (ix2 0 e') = m ((c : Thread nD τ).loc main_arg7) (ix1 e') := by
  have e : V m c main_v19 = shapeCast S1x512 (m ((c : Thread nD τ).loc main_arg7)) shapeCasts_S512_S1x512 := by
    dsimp only [Gen.V, Gen.V0]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results
    rfl
  rw [e]
  exact lead_apply _ shapeCasts_S512_S1x512 e'

end Cert.Embed.KernelHost

end
-- ==== Proof.KernelValue.lean ====
/-
  The kernel program's result as a function of its arguments.

  The pallas_call leaves row `16 b + k` of its output array at `rowK` of the arrays it was launched on; those arrays are
  the host prefix's functions of the arguments, in exactly the relation to the weight matrix and the biases under which a
  kernel row is a reference row. The program's last operation regroups the flattened row axis into (vehicle, slot), so
  entry `(b, k, d)` of the result is column `d` of row `16 b + k`: `outR` of the arguments.
-/
import proofs.«148316_j34368328302902_1_alg».proof.Proof.Gen.KernelIdeal.Frame
import proofs.«148316_j34368328302902_1_alg».proof.Proof.Spec
import proofs.«148316_j34368328302902_1_alg».proof.Proof.SpecLaws
import proofs.«148316_j34368328302902_1_alg».proof.Proof.KernelArr
import proofs.«148316_j34368328302902_1_alg».proof.Proof.KernelHost
import Idealize.ShloMosaic.Lib.StableHlo.Run
import Idealize.ShloMosaic.Lib.Pipeline.Value
import Idealize.ShloMosaic.Lib.ValueIdx

set_option maxRecDepth 16384

noncomputable section

namespace Cert.Embed.KernelValue

open Idealize.ShloMosaic Idealize.ShloMosaic.TcCoe Idealize.ShloMosaic.ValueIdx Idealize.SL.Sem Idealize.ShloMosaic.StableHlo
open Cert.KernelIdeal Cert.KernelIdeal.Gen Cert.Embed Cert.Embed.KernelHost

variable (m : (ℓ : Loc nD τ sig) → Buf (Elt Ideal) ℓ)

/-- The result array, from the arguments as launched. -/
abbrev res (c : Dev nD) : S2048x16x512.Idx → EReal :=
  outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- Row `16 b + k` of the region's output is the reference row of vehicle `b`, slot `k`. -/
theorem rowAt_eq (c : Dev nD) (b : Fin 2048) (k : Fin 16) (d : Fin 512) :
    KernelArr.rowAt m c (flat b k) d = res m c (ix3 b k d) := by
  unfold KernelArr.rowAt
  rw [v0_at, v7_at, v3_at,
    show (fun e => V m c main_v18 (ix2 0 e)) = fun e => m ((c : Thread nD τ).loc main_arg6) (ix1 e) from funext (v18_at m c),
    show (fun e => V m c main_v19 (ix2 0 e)) = fun e => m ((c : Thread nD τ).loc main_arg7) (ix1 e) from funext (v19_at m c)]
  exact rowK_eq_rowR _ _ _ _ _ _ _ (fun g f => m ((c : Thread nD τ).loc main_arg3) (ix2 g f))
    (fun g => m ((c : Thread nD τ).loc main_arg4) (ix1 g)) (fun g => m ((c : Thread nD τ).loc main_arg5) (ix1 g)) _ _ d
    (fun g j => v10_at m c g j) (fun g j => v12_at m c g j) (fun g => v15_at m c g) (fun g => v17_at m c g)

/-- Regrouping [32768, 512] as [2048, 16, 512] reads entry `(b, k, d)` at `(16 b + k, d)`. -/
theorem regroup_apply {α : Type} (x : S32768x512.Idx → α) (b : Fin 2048) (k : Fin 16) (d : Fin 512) :
    shapeCast S2048x16x512 x shapeCasts_S32768x512_S2048x16x512 (ix3 b k d) = x (ix2 (flat b k) d) :=
  shapeCast_apply x shapeCasts_S32768x512_S2048x16x512 (ix3 b k d) (ix2 (flat b k) d) (by
    rw [Shape.rowMajor_val_two, Shape.rowMajor_val_three]
    show (16 * b.val + k.val) * 512 + d.val = (b.val * 16 + k.val) * 512 + d.val
    omega)

/-- The program's result after the host tail. -/
theorem result_eq (c : Dev nD) :
    Pipeline.afterTail₀ cfgs (dats m) 0 (V0 m) [hostOps1] c main_v21 = res m c := by
  unfold Pipeline.afterTail₀
  show StableHlo.after hostOps1 _ (Proc.devRef .tc main_v21) = _
  after_results
  have hw := (Pipeline.withArrays_arr spec0 launch0.win.arr_inj c (V0 m c) (fun w => (dats m 0 c).arrAt w cfg0.N) 9).trans (KernelArr.final m c)
  funext i
  obtain ⟨b, k, d, rfl⟩ : ∃ (b : Fin 2048) (k : Fin 16) (d : Fin 512), i = ix3 b k d := ⟨i 0, i 1, i 2, eq_ix3 i⟩
  show shapeCast S2048x16x512
      (Pipeline.withArrays spec0 c (V0 m c) (fun w => (dats m 0 c).arrAt w cfg0.N) (Proc.devRef .tc (Pipeline.arrRef spec0 9)))
      shapeCasts_S32768x512_S2048x16x512 (ix3 b k d) = _
  rw [hw, regroup_apply]
  exact rowAt_eq m c b k d

/-- The frame run re-posted: the result at `outR` of the arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v21) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v21 (Pipeline.mem_restRefs_of main_v21 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.Embed.KernelValue

end
-- ==== Proof.RefRow.lean ====
/-
  The reference's result, operation by operation, is `outR` of its eight arguments.

  The index of an entry is split into its three coordinates (vehicle `b`, slot `k`, column `d`), and the program is read
  inside out at that entry: the feature row (the join of the node one-hot, the scaled load and the time one-hot), its
  contraction against a weight row with the two biases (a gate pre-activation), the cell over three column blocks of
  the gates, and last the row's mean, variance and normalized value.
-/
import proofs.«148316_j34368328302902_1_alg».proof.Proof.Gen.ReferenceIdeal.Read
import proofs.«148316_j34368328302902_1_alg».proof.Proof.Spec
import proofs.«148316_j34368328302902_1_alg».proof.Proof.LibCoe
import Idealize.ShloMosaic.Lib.Pipeline.Value
import Idealize.ShloMosaic.Lib.ValueIdx
import Idealize.ShloMosaic.PureOps.Ideal.Laws

noncomputable section

namespace Cert.Embed.Reference

open Idealize.ShloMosaic Idealize.ShloMosaic.ValueIdx Cert.ReferenceIdeal Cert.ReferenceIdeal.Read Cert.Embed
open Cert.ReferenceIdeal.Gen
open Finset BigOperators

/-! ### The three-piece join along the last axis, read at an index -/

section Join
variable {α : Type} (p0 : S2048x16x1000.Idx → α) (p1 : S2048x16x1.Idx → α) (p2 : S2048x16x1023.Idx → α)

/-- Below 1000 on the joined axis the join reads its first piece. -/
theorem join_lo (b : Fin 2048) (k : Fin 16) (f : Fin 2024) (h : f.val < 1000) :
    concatenate S2048x16x2024 2 [⟨S2048x16x1000, p0⟩, ⟨S2048x16x1, p1⟩, ⟨S2048x16x1023, p2⟩]
      concatenates_S2048x16x1000_S2048x16x1_S2048x16x1023_S2048x16x2024_d2 (ix3 b k f) = p0 (ix3 b k ⟨f.val, h⟩) := by
  refine concatenate_apply_piece (2 : Fin S2048x16x2024.rank)
    [⟨S2048x16x1000, p0⟩, ⟨S2048x16x1, p1⟩, ⟨S2048x16x1023, p2⟩]
    concatenates_S2048x16x1000_S2048x16x1_S2048x16x1023_S2048x16x2024_d2 (ix3 b k f) 0 (by simp)
    S2048x16x1000 p0 rfl rfl 0 rfl (ix3 b k ⟨f.val, h⟩) ?_ ?_
  · intro c hc
    match c with
    | ⟨0, _⟩ => rfl
    | ⟨1, _⟩ => rfl
    | ⟨2, _⟩ => exact absurd rfl hc
  · show 0 + f.val = f.val
    omega

/-- At 1000 it reads its second piece, of extent one. -/
theorem join_mid (b : Fin 2048) (k : Fin 16) (f : Fin 2024) (h : f.val = 1000) :
    concatenate S2048x16x2024 2 [⟨S2048x16x1000, p0⟩, ⟨S2048x16x1, p1⟩, ⟨S2048x16x1023, p2⟩]
      concatenates_S2048x16x1000_S2048x16x1_S2048x16x1023_S2048x16x2024_d2 (ix3 b k f)
      = p1 (ix3 b k ⟨0, Nat.one_pos⟩) := by
  refine concatenate_apply_piece (2 : Fin S2048x16x2024.rank)
    [⟨S2048x16x1000, p0⟩, ⟨S2048x16x1, p1⟩, ⟨S2048x16x1023, p2⟩]
    concatenates_S2048x16x1000_S2048x16x1_S2048x16x1023_S2048x16x2024_d2 (ix3 b k f) 1 (by simp)
    S2048x16x1 p1 rfl rfl 1000 rfl (ix3 b k ⟨0, Nat.one_pos⟩) ?_ ?_
  · intro c hc
    match c with
    | ⟨0, _⟩ => rfl
    | ⟨1, _⟩ => rfl
    | ⟨2, _⟩ => exact absurd rfl hc
  · show 1000 + 0 = f.val
    omega

/-- Above 1000 it reads its third piece, 1001 places back. -/
theorem join_hi (b : Fin 2048) (k : Fin 16) (f : Fin 2024) (h : f.val - 1001 < 1023) (h' : 1001 ≤ f.val) :
    concatenate S2048x16x2024 2 [⟨S2048x16x1000, p0⟩, ⟨S2048x16x1, p1⟩, ⟨S2048x16x1023, p2⟩]
      concatenates_S2048x16x1000_S2048x16x1_S2048x16x1023_S2048x16x2024_d2 (ix3 b k f)
      = p2 (ix3 b k ⟨f.val - 1001, h⟩) := by
  refine concatenate_apply_piece (2 : Fin S2048x16x2024.rank)
    [⟨S2048x16x1000, p0⟩, ⟨S2048x16x1, p1⟩, ⟨S2048x16x1023, p2⟩]
    concatenates_S2048x16x1000_S2048x16x1_S2048x16x1023_S2048x16x2024_d2 (ix3 b k f) 2 (by simp)
    S2048x16x1023 p2 rfl rfl 1001 rfl (ix3 b k ⟨f.val - 1001, h⟩) ?_ ?_
  · intro c hc
    match c with
    | ⟨0, _⟩ => rfl
    | ⟨1, _⟩ => rfl
    | ⟨2, _⟩ => exact absurd rfl hc
  · show 1001 + (f.val - 1001) = f.val
    omega

end Join

/-! ### The three pieces of the feature row -/

/-- The node one-hot piece at an index. -/
theorem v0_eq (x0 : (⟨S2048x16, .i32⟩ : BufTy).Contents (Elt Ideal)) (b : Fin 2048) (k : Fin 16) (j : Fin 1000) :
    val_main_v0 (F := Ideal) x0 (ix3 b k j) = onehot (x0 (ix2 b k)) j.val := by
  rw [val_main_v0_apply, val_main_call0_v4_apply, val_main_call0_v2_apply, val_main_call0_v0_apply,
    val_main_call0_v3_apply, val_main_call0_v1_apply]
  have e : idx_main_call0_v0 (idx_main_call0_v2 (ix3 b k j)) = ix2 b k :=
    funext fun a => Fin.ext (by match a with | ⟨0, _⟩ => rfl | ⟨1, _⟩ => rfl)
  rw [e]
  rfl

/-- The clipped time word. -/
theorem v4_eq (x2 : (⟨S2048, .i32⟩ : BufTy).Contents (Elt Ideal)) (b : Fin 2048) :
    val_main_v4 (F := Ideal) x2 (ix1 b) = clip (x2 (ix1 b)) := by
  rw [val_main_v4_apply, val_main_call1_v4_apply, val_main_call1_v3_apply, val_main_c_0_apply,
    val_main_call1_v2_apply, val_main_call1_v1_apply, val_main_call1_v0_apply, val_main_c_apply]
  rfl

/-- The time one-hot piece at an index. -/
theorem v7_eq (x2 : (⟨S2048, .i32⟩ : BufTy).Contents (Elt Ideal)) (b : Fin 2048) (k : Fin 16) (j : Fin 1023) :
    val_main_v7 (F := Ideal) x2 (ix3 b k j) = onehot (clip (x2 (ix1 b))) j.val := by
  rw [val_main_v7_apply, val_main_v6_apply, val_main_v5_apply, val_main_call2_v4_apply, val_main_call2_v2_apply,
    val_main_call2_v0_apply, val_main_call2_v3_apply, val_main_call2_v1_apply]
  have e : idx_main_call2_v0 (idx_main_call2_v2 (idx_main_v6 (idx_main_v7 (ix3 b k j)))) = ix1 b :=
    funext fun a => Fin.ext (by match a with | ⟨0, _⟩ => rfl)
  rw [e, v4_eq]
  rfl

/-- The scaled load piece at an index. -/
theorem v3_eq (x1 : (⟨S2048x16, .f32⟩ : BufTy).Contents (Elt Ideal)) (b : Fin 2048) (k : Fin 16) (j : Fin 1) :
    val_main_v3 (F := Ideal) x1 (ix3 b k j) = Ideal.div (x1 (ix2 b k)) c100 := by
  rw [val_main_v3_apply, val_main_v2_apply, val_main_v1_apply, val_main_cst_apply]
  have e : idx_main_v3 (ix3 b k j) = ix2 b k :=
    funext fun a => Fin.ext (by match a with | ⟨0, _⟩ => rfl | ⟨1, _⟩ => rfl)
  rw [e]
  rfl

/-- The joined feature row at an index: the node one-hot below 1000, the scaled load at 1000, the time one-hot above. -/
theorem v8_eq (x0 : (⟨S2048x16, .i32⟩ : BufTy).Contents (Elt Ideal)) (x1 : (⟨S2048x16, .f32⟩ : BufTy).Contents (Elt Ideal))
    (x2 : (⟨S2048, .i32⟩ : BufTy).Contents (Elt Ideal)) (b : Fin 2048) (k : Fin 16) (f : Fin 2024) :
    val_main_v8 (F := Ideal) x0 x1 x2 (ix3 b k f)
      = feat (x0 (ix2 b k)) (clip (x2 (ix1 b))) (Ideal.div (x1 (ix2 b k)) c100) f := by
  unfold val_main_v8 feat
  by_cases h1 : f.val < 1000
  · rw [if_pos h1]
    exact (join_lo _ _ _ b k f h1).trans (v0_eq x0 b k ⟨f.val, h1⟩)
  · rw [if_neg h1]
    by_cases h2 : f.val = 1000
    · rw [if_pos h2]
      exact (join_mid _ _ _ b k f h2).trans (v3_eq x1 b k ⟨0, Nat.one_pos⟩)
    · rw [if_neg h2]
      have h3 : f.val - 1001 < 1023 := by have := f.isLt; omega
      exact (join_hi _ _ _ b k f h3 (by omega)).trans (v7_eq x2 b k ⟨f.val - 1001, h3⟩)

/-! ### The gate pre-activations -/

/-- The contraction of the feature row against a weight row. -/
theorem v9_eq (x0 : (⟨S2048x16, .i32⟩ : BufTy).Contents (Elt Ideal)) (x1 : (⟨S2048x16, .f32⟩ : BufTy).Contents (Elt Ideal))
    (x2 : (⟨S2048, .i32⟩ : BufTy).Contents (Elt Ideal)) (x3 : (⟨S2048x2024, .f32⟩ : BufTy).Contents (Elt Ideal))
    (b : Fin 2048) (k : Fin 16) (g : Fin 2048) :
    val_main_v9 (F := Ideal) x0 x1 x2 x3 (ix3 b k g)
      = ∑ f : Fin 2024, feat (x0 (ix2 b k)) (clip (x2 (ix1 b))) (Ideal.div (x1 (ix2 b k)) c100) f * x3 (ix2 g f) := by
  rw [val_main_v9_apply]
  refine Finset.sum_congr rfl fun f _ => ?_
  have el : lidx_main_v9 (ix3 b k g) f = ix3 b k f :=
    funext fun a => Fin.ext (by match a with | ⟨0, _⟩ => rfl | ⟨1, _⟩ => rfl | ⟨2, _⟩ => rfl)
  have er : ridx_main_v9 (ix3 b k g) f = ix2 g f :=
    funext fun a => Fin.ext (by match a with | ⟨0, _⟩ => rfl | ⟨1, _⟩ => rfl)
  rw [el, er, v8_eq]

/-- The gate pre-activations of row `(b, k)`, as the specification names them. -/
def gates (x0 : (⟨S2048x16, .i32⟩ : BufTy).Contents (Elt Ideal)) (x1 : (⟨S2048x16, .f32⟩ : BufTy).Contents (Elt Ideal))
    (x2 : (⟨S2048, .i32⟩ : BufTy).Contents (Elt Ideal)) (x3 : (⟨S2048x2024, .f32⟩ : BufTy).Contents (Elt Ideal))
    (x4 x5 : (⟨S2048, .f32⟩ : BufTy).Contents (Elt Ideal)) (b : Fin 2048) (k : Fin 16) (g : Fin 2048) : EReal :=
  gateR (x0 (ix2 b k)) (clip (x2 (ix1 b))) (Ideal.div (x1 (ix2 b k)) c100) (fun f => x3 (ix2 g f)) (x4 (ix1 g)) (x5 (ix1 g))

/-- The contraction and the two bias rows: a gate pre-activation. -/
theorem v15_eq (x0 : (⟨S2048x16, .i32⟩ : BufTy).Contents (Elt Ideal)) (x1 : (⟨S2048x16, .f32⟩ : BufTy).Contents (Elt Ideal))
    (x2 : (⟨S2048, .i32⟩ : BufTy).Contents (Elt Ideal)) (x3 : (⟨S2048x2024, .f32⟩ : BufTy).Contents (Elt Ideal))
    (x4 x5 : (⟨S2048, .f32⟩ : BufTy).Contents (Elt Ideal)) (b : Fin 2048) (k : Fin 16) (g : Fin 2048) :
    val_main_v15 (F := Ideal) x0 x1 x2 x3 x4 x5 (ix3 b k g) = gates x0 x1 x2 x3 x4 x5 b k g := by
  rw [val_main_v15_apply, val_main_v12_apply, v9_eq, val_main_v11_apply, val_main_v10_apply, val_main_v14_apply,
    val_main_v13_apply]
  have e4 : idx_main_v10 (idx_main_v11 (ix3 b k g)) = ix1 g :=
    funext fun a => Fin.ext (by match a with | ⟨0, _⟩ => rfl)
  have e5 : idx_main_v13 (idx_main_v14 (ix3 b k g)) = ix1 g :=
    funext fun a => Fin.ext (by match a with | ⟨0, _⟩ => rfl)
  rw [e4, e5]
  rfl

/-! ### The cell -/

/-- The pattern of `1.0` is the extended real `1`. -/
theorem one_eq : Ideal.ofBits .f32 0x3F800000#32 = (1 : EReal) := by
  rw [Cert.LibCoe.ofBits_one, EReal.coe_one]

/-- The reference spells the logistic function out: `1 / (1 + exp (-x))`. -/
theorem sigmoid_eq (x : EReal) :
    Ideal.div (Ideal.ofBits .f32 0x3F800000#32) (Ideal.ofBits .f32 0x3F800000#32 + Ideal.exp (-x)) = Ideal.logistic x := by
  rw [one_eq]
  rfl

/-- The three column blocks the cell reads. -/
theorem v16_eq (x0 : (⟨S2048x16, .i32⟩ : BufTy).Contents (Elt Ideal)) (x1 : (⟨S2048x16, .f32⟩ : BufTy).Contents (Elt Ideal))
    (x2 : (⟨S2048, .i32⟩ : BufTy).Contents (Elt Ideal)) (x3 : (⟨S2048x2024, .f32⟩ : BufTy).Contents (Elt Ideal))
    (x4 x5 : (⟨S2048, .f32⟩ : BufTy).Contents (Elt Ideal)) (b : Fin 2048) (k : Fin 16) (d : Fin 512) :
    val_main_v16 (F := Ideal) x0 x1 x2 x3 x4 x5 (ix3 b k d) = gates x0 x1 x2 x3 x4 x5 b k (colI d) := by
  rw [val_main_v16_apply]
  have e : idx_main_v16 (ix3 b k d) = ix3 b k (colI d) :=
    funext fun a => Fin.ext (by match a with | ⟨0, _⟩ => rfl | ⟨1, _⟩ => rfl | ⟨2, _⟩ => rfl)
  rw [e, v15_eq]

theorem v18_eq (x0 : (⟨S2048x16, .i32⟩ : BufTy).Contents (Elt Ideal)) (x1 : (⟨S2048x16, .f32⟩ : BufTy).Contents (Elt Ideal))
    (x2 : (⟨S2048, .i32⟩ : BufTy).Contents (Elt Ideal)) (x3 : (⟨S2048x2024, .f32⟩ : BufTy).Contents (Elt Ideal))
    (x4 x5 : (⟨S2048, .f32⟩ : BufTy).Contents (Elt Ideal)) (b : Fin 2048) (k : Fin 16) (d : Fin 512) :
    val_main_v18 (F := Ideal) x0 x1 x2 x3 x4 x5 (ix3 b k d) = gates x0 x1 x2 x3 x4 x5 b k (colG d) := by
  rw [val_main_v18_apply]
  have e : idx_main_v18 (ix3 b k d) = ix3 b k (colG d) :=
    funext fun a => Fin.ext (by match a with | ⟨0, _⟩ => rfl | ⟨1, _⟩ => rfl | ⟨2, _⟩ => rfl)
  rw [e, v15_eq]

theorem v19_eq (x0 : (⟨S2048x16, .i32⟩ : BufTy).Contents (Elt Ideal)) (x1 : (⟨S2048x16, .f32⟩ : BufTy).Contents (Elt Ideal))
    (x2 : (⟨S2048, .i32⟩ : BufTy).Contents (Elt Ideal)) (x3 : (⟨S2048x2024, .f32⟩ : BufTy).Contents (Elt Ideal))
    (x4 x5 : (⟨S2048, .f32⟩ : BufTy).Contents (Elt Ideal)) (b : Fin 2048) (k : Fin 16) (d : Fin 512) :
    val_main_v19 (F := Ideal) x0 x1 x2 x3 x4 x5 (ix3 b k d) = gates x0 x1 x2 x3 x4 x5 b k (colO d) := by
  rw [val_main_v19_apply]
  have e : idx_main_v19 (ix3 b k d) = ix3 b k (colO d) :=
    funext fun a => Fin.ext (by match a with | ⟨0, _⟩ => rfl | ⟨1, _⟩ => rfl | ⟨2, _⟩ => rfl)
  rw [e, v15_eq]

/-- The input gate: the logistic function of the first block's column. -/
theorem v25_eq (x0 : (⟨S2048x16, .i32⟩ : BufTy).Contents (Elt Ideal)) (x1 : (⟨S2048x16, .f32⟩ : BufTy).Contents (Elt Ideal))
    (x2 : (⟨S2048, .i32⟩ : BufTy).Contents (Elt Ideal)) (x3 : (⟨S2048x2024, .f32⟩ : BufTy).Contents (Elt Ideal))
    (x4 x5 : (⟨S2048, .f32⟩ : BufTy).Contents (Elt Ideal)) (b : Fin 2048) (k : Fin 16) (d : Fin 512) :
    val_main_v25 (F := Ideal) x0 x1 x2 x3 x4 x5 (ix3 b k d)
      = Ideal.logistic (gates x0 x1 x2 x3 x4 x5 b k (colI d)) := by
  rw [val_main_v25_apply, val_main_v24_apply, val_main_cst_2_apply, val_main_v23_apply, val_main_v22_apply,
    val_main_cst_1_apply, val_main_v21_apply, val_main_v20_apply, v16_eq]
  exact sigmoid_eq _

/-- The output gate: the logistic function of the fourth block's column. -/
theorem v33_eq (x0 : (⟨S2048x16, .i32⟩ : BufTy).Contents (Elt Ideal)) (x1 : (⟨S2048x16, .f32⟩ : BufTy).Contents (Elt Ideal))
    (x2 : (⟨S2048, .i32⟩ : BufTy).Contents (Elt Ideal)) (x3 : (⟨S2048x2024, .f32⟩ : BufTy).Contents (Elt Ideal))
    (x4 x5 : (⟨S2048, .f32⟩ : BufTy).Contents (Elt Ideal)) (b : Fin 2048) (k : Fin 16) (d : Fin 512) :
    val_main_v33 (F := Ideal) x0 x1 x2 x3 x4 x5 (ix3 b k d)
      = Ideal.logistic (gates x0 x1 x2 x3 x4 x5 b k (colO d)) := by
  rw [val_main_v33_apply, val_main_v32_apply, val_main_cst_4_apply, val_main_v31_apply, val_main_v30_apply,
    val_main_cst_3_apply, val_main_v29_apply, val_main_v28_apply, v19_eq]
  exact sigmoid_eq _

/-- The hidden value: the cell of the row's gates. -/
theorem v35_eq (x0 : (⟨S2048x16, .i32⟩ : BufTy).Contents (Elt Ideal)) (x1 : (⟨S2048x16, .f32⟩ : BufTy).Contents (Elt Ideal))
    (x2 : (⟨S2048, .i32⟩ : BufTy).Contents (Elt Ideal)) (x3 : (⟨S2048x2024, .f32⟩ : BufTy).Contents (Elt Ideal))
    (x4 x5 : (⟨S2048, .f32⟩ : BufTy).Contents (Elt Ideal)) (b : Fin 2048) (k : Fin 16) (d : Fin 512) :
    val_main_v35 (F := Ideal) x0 x1 x2 x3 x4 x5 (ix3 b k d) = hidden (gates x0 x1 x2 x3 x4 x5 b k) d := by
  rw [val_main_v35_apply, v33_eq, val_main_v34_apply, val_main_v27_apply, v25_eq, val_main_v26_apply, v18_eq]
  rfl

/-! ### The normalization -/

/-- The row sum of the hidden values. -/
theorem v36_eq (x0 : (⟨S2048x16, .i32⟩ : BufTy).Contents (Elt Ideal)) (x1 : (⟨S2048x16, .f32⟩ : BufTy).Contents (Elt Ideal))
    (x2 : (⟨S2048, .i32⟩ : BufTy).Contents (Elt Ideal)) (x3 : (⟨S2048x2024, .f32⟩ : BufTy).Contents (Elt Ideal))
    (x4 x5 : (⟨S2048, .f32⟩ : BufTy).Contents (Elt Ideal)) (b : Fin 2048) (k : Fin 16) :
    val_main_v36 (F := Ideal) x0 x1 x2 x3 x4 x5 (ix2 b k) = ∑ j : Fin 512, hidden (gates x0 x1 x2 x3 x4 x5 b k) j := by
  rw [val_main_v36_apply, val_main_cst_5_apply, Ideal.ofBits_def, Ideal.ofBits_zero_f32, zero_add]
  refine Finset.sum_congr rfl fun j _ => ?_
  have e : idx_main_v36 (ix2 b k) j = ix3 b k j :=
    funext fun a => Fin.ext (by match a with | ⟨0, _⟩ => rfl | ⟨1, _⟩ => rfl | ⟨2, _⟩ => rfl)
  rw [e, v35_eq]

/-- The row mean. -/
theorem v39_eq (x0 : (⟨S2048x16, .i32⟩ : BufTy).Contents (Elt Ideal)) (x1 : (⟨S2048x16, .f32⟩ : BufTy).Contents (Elt Ideal))
    (x2 : (⟨S2048, .i32⟩ : BufTy).Contents (Elt Ideal)) (x3 : (⟨S2048x2024, .f32⟩ : BufTy).Contents (Elt Ideal))
    (x4 x5 : (⟨S2048, .f32⟩ : BufTy).Contents (Elt Ideal)) (b : Fin 2048) (k : Fin 16) (z : Fin 1) :
    val_main_v39 (F := Ideal) x0 x1 x2 x3 x4 x5 (ix3 b k z) = mean (hidden (gates x0 x1 x2 x3 x4 x5 b k)) := by
  rw [val_main_v39_apply, val_main_v37_apply, val_main_v38_apply, val_main_cst_6_apply]
  have e : idx_main_v37 (ix3 b k z) = ix2 b k :=
    funext fun a => Fin.ext (by match a with | ⟨0, _⟩ => rfl | ⟨1, _⟩ => rfl)
  rw [e, v36_eq]
  rfl

/-- A hidden value less the row mean (the reference forms it twice). -/
theorem v41_eq (x0 : (⟨S2048x16, .i32⟩ : BufTy).Contents (Elt Ideal)) (x1 : (⟨S2048x16, .f32⟩ : BufTy).Contents (Elt Ideal))
    (x2 : (⟨S2048, .i32⟩ : BufTy).Contents (Elt Ideal)) (x3 : (⟨S2048x2024, .f32⟩ : BufTy).Contents (Elt Ideal))
    (x4 x5 : (⟨S2048, .f32⟩ : BufTy).Contents (Elt Ideal)) (b : Fin 2048) (k : Fin 16) (d : Fin 512) :
    val_main_v41 (F := Ideal) x0 x1 x2 x3 x4 x5 (ix3 b k d) = (hidden (gates x0 x1 x2 x3 x4 x5 b k)) d - mean (hidden (gates x0 x1 x2 x3 x4 x5 b k)) := by
  rw [val_main_v41_apply, v35_eq, val_main_v40_apply]
  have e : idx_main_v40 (ix3 b k d) = ix3 b k (⟨0, Nat.one_pos⟩ : Fin 1) :=
    funext fun a => Fin.ext (by match a with | ⟨0, _⟩ => rfl | ⟨1, _⟩ => rfl | ⟨2, _⟩ => rfl)
  rw [e, v39_eq]
  rfl

theorem v48_eq (x0 : (⟨S2048x16, .i32⟩ : BufTy).Contents (Elt Ideal)) (x1 : (⟨S2048x16, .f32⟩ : BufTy).Contents (Elt Ideal))
    (x2 : (⟨S2048, .i32⟩ : BufTy).Contents (Elt Ideal)) (x3 : (⟨S2048x2024, .f32⟩ : BufTy).Contents (Elt Ideal))
    (x4 x5 : (⟨S2048, .f32⟩ : BufTy).Contents (Elt Ideal)) (b : Fin 2048) (k : Fin 16) (d : Fin 512) :
    val_main_v48 (F := Ideal) x0 x1 x2 x3 x4 x5 (ix3 b k d) = (hidden (gates x0 x1 x2 x3 x4 x5 b k)) d - mean (hidden (gates x0 x1 x2 x3 x4 x5 b k)) := by
  rw [val_main_v48_apply, v35_eq, val_main_v47_apply]
  have e : idx_main_v47 (ix3 b k d) = ix3 b k (⟨0, Nat.one_pos⟩ : Fin 1) :=
    funext fun a => Fin.ext (by match a with | ⟨0, _⟩ => rfl | ⟨1, _⟩ => rfl | ⟨2, _⟩ => rfl)
  rw [e, v39_eq]
  rfl

/-- The row sum of the squared deviations. -/
theorem v43_eq (x0 : (⟨S2048x16, .i32⟩ : BufTy).Contents (Elt Ideal)) (x1 : (⟨S2048x16, .f32⟩ : BufTy).Contents (Elt Ideal))
    (x2 : (⟨S2048, .i32⟩ : BufTy).Contents (Elt Ideal)) (x3 : (⟨S2048x2024, .f32⟩ : BufTy).Contents (Elt Ideal))
    (x4 x5 : (⟨S2048, .f32⟩ : BufTy).Contents (Elt Ideal)) (b : Fin 2048) (k : Fin 16) :
    val_main_v43 (F := Ideal) x0 x1 x2 x3 x4 x5 (ix2 b k)
      = ∑ j : Fin 512, ((hidden (gates x0 x1 x2 x3 x4 x5 b k)) j - mean (hidden (gates x0 x1 x2 x3 x4 x5 b k))) * ((hidden (gates x0 x1 x2 x3 x4 x5 b k)) j - mean (hidden (gates x0 x1 x2 x3 x4 x5 b k))) := by
  rw [val_main_v43_apply, val_main_cst_7_apply, Ideal.ofBits_def, Ideal.ofBits_zero_f32, zero_add]
  refine Finset.sum_congr rfl fun j _ => ?_
  have e : idx_main_v43 (ix2 b k) j = ix3 b k j :=
    funext fun a => Fin.ext (by match a with | ⟨0, _⟩ => rfl | ⟨1, _⟩ => rfl | ⟨2, _⟩ => rfl)
  rw [e, val_main_v42_apply, v41_eq]
  rfl

/-- The root of the offset row variance. -/
theorem v51_eq (x0 : (⟨S2048x16, .i32⟩ : BufTy).Contents (Elt Ideal)) (x1 : (⟨S2048x16, .f32⟩ : BufTy).Contents (Elt Ideal))
    (x2 : (⟨S2048, .i32⟩ : BufTy).Contents (Elt Ideal)) (x3 : (⟨S2048x2024, .f32⟩ : BufTy).Contents (Elt Ideal))
    (x4 x5 : (⟨S2048, .f32⟩ : BufTy).Contents (Elt Ideal)) (b : Fin 2048) (k : Fin 16) (z : Fin 1) :
    val_main_v51 (F := Ideal) x0 x1 x2 x3 x4 x5 (ix3 b k z) = Ideal.sqrt (var (hidden (gates x0 x1 x2 x3 x4 x5 b k)) + ceps) := by
  rw [val_main_v51_apply, val_main_v50_apply, val_main_v46_apply, val_main_v44_apply, val_main_v45_apply,
    val_main_cst_8_apply, val_main_v49_apply, val_main_cst_9_apply]
  have e : idx_main_v44 (ix3 b k z) = ix2 b k :=
    funext fun a => Fin.ext (by match a with | ⟨0, _⟩ => rfl | ⟨1, _⟩ => rfl)
  rw [e, v43_eq]
  rfl

/-- The result: the reference's normalized value, scaled and shifted. -/
theorem v59_eq (x0 : (⟨S2048x16, .i32⟩ : BufTy).Contents (Elt Ideal)) (x1 : (⟨S2048x16, .f32⟩ : BufTy).Contents (Elt Ideal))
    (x2 : (⟨S2048, .i32⟩ : BufTy).Contents (Elt Ideal)) (x3 : (⟨S2048x2024, .f32⟩ : BufTy).Contents (Elt Ideal))
    (x4 x5 : (⟨S2048, .f32⟩ : BufTy).Contents (Elt Ideal)) (x6 x7 : (⟨S512, .f32⟩ : BufTy).Contents (Elt Ideal)) (b : Fin 2048) (k : Fin 16) (d : Fin 512) :
    val_main_v59 (F := Ideal) x0 x1 x2 x3 x4 x5 x6 x7 (ix3 b k d)
      = normR (hidden (gates x0 x1 x2 x3 x4 x5 b k)) (x6 (ix1 d)) (x7 (ix1 d)) d := by
  rw [val_main_v59_apply, val_main_v56_apply, val_main_v53_apply, v48_eq, val_main_v52_apply, val_main_v55_apply,
    val_main_v54_apply, val_main_v58_apply, val_main_v57_apply]
  have e : idx_main_v52 (ix3 b k d) = ix3 b k (⟨0, Nat.one_pos⟩ : Fin 1) :=
    funext fun a => Fin.ext (by match a with | ⟨0, _⟩ => rfl | ⟨1, _⟩ => rfl | ⟨2, _⟩ => rfl)
  have e6 : idx_main_v54 (idx_main_v55 (ix3 b k d)) = ix1 d :=
    funext fun a => Fin.ext (by match a with | ⟨0, _⟩ => rfl)
  have e7 : idx_main_v57 (idx_main_v58 (ix3 b k d)) = ix1 d :=
    funext fun a => Fin.ext (by match a with | ⟨0, _⟩ => rfl)
  rw [e, v51_eq, e6, e7]
  rfl

/-- The reference's result, operation by operation, is `outR` of its eight arguments. -/
theorem result_eq (x0 : (⟨S2048x16, .i32⟩ : BufTy).Contents (Elt Ideal)) (x1 : (⟨S2048x16, .f32⟩ : BufTy).Contents (Elt Ideal))
    (x2 : (⟨S2048, .i32⟩ : BufTy).Contents (Elt Ideal)) (x3 : (⟨S2048x2024, .f32⟩ : BufTy).Contents (Elt Ideal))
    (x4 x5 : (⟨S2048, .f32⟩ : BufTy).Contents (Elt Ideal)) (x6 x7 : (⟨S512, .f32⟩ : BufTy).Contents (Elt Ideal)) :
    val_main_v59 (F := Ideal) x0 x1 x2 x3 x4 x5 x6 x7 = outR x0 x1 x2 x3 x4 x5 x6 x7 := by
  funext i
  obtain ⟨b, k, d, rfl⟩ : ∃ (b : Fin 2048) (k : Fin 16) (d : Fin 512), i = ix3 b k d := ⟨i 0, i 1, i 2, eq_ix3 i⟩
  exact v59_eq x0 x1 x2 x3 x4 x5 x6 x7 b k d

end Cert.Embed.Reference

end
-- ==== Proof.lean ====
/-
  A Pallas kernel that embeds vehicles for a single-step LSTM followed by a LayerNorm, against its jnp reference.

  For each (vehicle, slot) pair both programs form 2048 gate pre-activations from a feature row that is one-hot in the
  node position, carries the load divided by the capacity, and is one-hot in the clipped time step; from the gates the
  LSTM cell with zero initial state, `σ(o) · tanh (σ(i) · tanh g)`; and normalize the 512 hidden values of the row to zero
  mean and unit variance, scaled and shifted.

  The reference contracts the whole 2024-entry feature row against the weight matrix and adds the two biases in turn. The
  kernel never builds the feature row: it contracts a 1024-wide node one-hot row and a 1024-wide time one-hot row against
  the two blocks of the weight matrix on either side of the load column, each padded with zero columns, adds the load
  times the load column, and adds the two biases summed beforehand. The padded columns contribute `x · 0 = 0`, and the rest
  is the reference's sum grouped otherwise (`gateK_eq_gateR`); a node word outside `[0, 1000)` selects a padded column or
  none, and gives zero on both sides. The reference spells the logistic function out as `1 / (1 + exp (-x))`, which is what
  the kernel's one operation denotes. The kernel multiplies by the reciprocal square root of the offset variance where the
  reference divides by its square root: the hidden values are real whatever the gates are (the logistic function and
  `tanh` are real-valued on every extended real), so the offset variance is a positive real, and there the two agree
  (`normK_eq_normR`). No finiteness of the inputs is used.

  The kernel's side is read off its generated frame run: what a grid point stores is `rowK` row by row (KernelRow), the
  64 blocks tile the output array (KernelArr), the arrays the call is launched on are the host prefix's functions of the
  arguments (KernelHost), and the last operation regroups the flattened rows (KernelValue). The reference's side is its
  generated run read operation by operation (RefRow). Both end at `outR` of the arguments.
-/
import proofs.«148316_j34368328302902_1_alg».proof.Defs
import proofs.«148316_j34368328302902_1_alg».proof.Proof.Gen.Kernel
import proofs.«148316_j34368328302902_1_alg».proof.Proof.Gen.Kernel.Skeleton
import proofs.«148316_j34368328302902_1_alg».proof.Proof.Gen.Kernel.Launch
import proofs.«148316_j34368328302902_1_alg».proof.Proof.Gen.Kernel.Points
import proofs.«148316_j34368328302902_1_alg».proof.Proof.Gen.Kernel.Frame
import proofs.«148316_j34368328302902_1_alg».proof.Proof.Gen.KernelIdeal
import proofs.«148316_j34368328302902_1_alg».proof.Proof.Gen.KernelIdeal.Skeleton
import proofs.«148316_j34368328302902_1_alg».proof.Proof.Gen.KernelIdeal.Launch
import proofs.«148316_j34368328302902_1_alg».proof.Proof.Gen.KernelIdeal.Points
import proofs.«148316_j34368328302902_1_alg».proof.Proof.Gen.KernelIdeal.Frame
import proofs.«148316_j34368328302902_1_alg».proof.Proof.Gen.ReferenceIdeal
import proofs.«148316_j34368328302902_1_alg».proof.Proof.Gen.Pre_finite_inputs
import proofs.«148316_j34368328302902_1_alg».proof.Proof.Gen.ReferenceIdeal.Run
import proofs.«148316_j34368328302902_1_alg».proof.Proof.Gen.ReferenceIdeal.Read
import proofs.«148316_j34368328302902_1_alg».proof.Proof.KernelValue
import proofs.«148316_j34368328302902_1_alg».proof.Proof.RefRow
import Idealize.ShloMosaic.Adequacy
import Idealize.ShloMosaic.Init

noncomputable section

namespace Cert.Proof

open Idealize.ShloMosaic Idealize.SL.Sem

/-- At the ideal instance the kernel program ends with its result at `outR` of its arguments (its frame run, read) and the
    reference with its result at `outR` of its own (its run, read); the arguments agree, so the results are equal. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨fun c => Cert.Embed.KernelValue.res m c, Cert.Embed.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v59_eq, Cert.Embed.Reference.result_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
